-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_1)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_1) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : IVec S4x2048x2048 32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1x2048x1024 : Shape := ⟨3, ![1, 2048, 1024]⟩
abbrev S1x256x2048 : Shape := ⟨3, ![1, 256, 2048]⟩
abbrev S1x256x1024 : Shape := ⟨3, ![1, 256, 1024]⟩
abbrev S2048x1024 : Shape := ⟨2, ![2048, 1024]⟩
abbrev S1x512x1024 : Shape := ⟨3, ![1, 512, 1024]⟩
abbrev S512x1024 : Shape := ⟨2, ![512, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S4x2048x2048, .f32⟩
  | .hbm, ⟨13, _⟩ => ⟨S4x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x256x2048, .i32⟩
  | .local _ .vmem, ⟨6, _⟩ => ⟨S1x256x2048, .i32⟩
  | .local _ .vmem, ⟨7, _⟩ => ⟨S1x256x2048, .f32⟩
  | .local _ .vmem, ⟨8, _⟩ => ⟨S1x256x2048, .f32⟩
  | .local _ .vmem, ⟨9, _⟩ => ⟨S1x256x1024, .f32⟩
  | .local _ .vmem, ⟨10, _⟩ => ⟨S1x256x1024, .f32⟩
  | .local _ .vmem, ⟨11, _⟩ => ⟨S2048x1024, .bf16⟩
  | .local _ .vmem, ⟨12, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_24 : BitVec 32 := 0#32
  let c512_i32 : BitVec 32 := 512#32
  let v40 : BitVec 32 := Scalar.muli c0_i32_24 c512_i32
  v40
def k0_off1 (c0_i32_24 : BitVec 32) : Fin 3 → Nat :=
  let c0_25 : Index := 0#32
  let c512_i32 : BitVec 32 := 512#32
  let v40 : BitVec 32 := Scalar.muli c0_i32_24 c512_i32
  let v41 : BitVec 32 := v40
  let v42 : Index := Scalar.indexCast v41
  let c0_26 : Index := 0#32
  ![0, v42.toNat, 0]
def k0_off2 (c0_i32_24 : BitVec 32) : Fin 2 → Nat :=
  let c512_i32 : BitVec 32 := 512#32
  let v40 : BitVec 32 := Scalar.muli c0_i32_24 c512_i32
  let v41 : BitVec 32 := v40
  let v53 : Index := Scalar.indexCast v41
  let c0_33 : Index := 0#32
  ![v53.toNat, 0]
def k0_mult2 : BitVec 32 :=
  let c1_i32 : BitVec 32 := 1#32
  let c512_i32_35 : BitVec 32 := 512#32
  let v61 : BitVec 32 := Scalar.muli c1_i32 c512_i32_35
  v61
def k0_mult3 : BitVec 32 :=
  let c2_i32 : BitVec 32 := 2#32
  let c512_i32_46 : BitVec 32 := 512#32
  let v82 : BitVec 32 := Scalar.muli c2_i32 c512_i32_46
  v82
def k0_mult4 : BitVec 32 :=
  let c3_i32 : BitVec 32 := 3#32
  let c512_i32_57 : BitVec 32 := 512#32
  let v103 : BitVec 32 := Scalar.muli c3_i32 c512_i32_57
  v103
def k0_mult5 (i : grid0.Coords) : BitVec 32 :=
  let arg1 : BitVec 32 := BitVec.ofNat 32 (i 1).val
  let c256_i32 : BitVec 32 := 256#32
  let v3 : BitVec 32 := Scalar.muli arg1 c256_i32
  v3
def k0_off3 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  transposes_S1024x1024_S1024x1024_1_0 : S1024x1024.Transposes [1, 0] S1024x1024
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S512x1024 : 0 < S512x1024.numel
  shapeCasts_S512x1024_S512x1024 : S512x1024.ShapeCasts S512x1024
  h_S1x256x1024 : 0 < S1x256x1024.numel
  shapeCasts_S1x256x1024_S256x1024 : S1x256x1024.ShapeCasts S256x1024
  inb_S2048x1024_S2048x1024_0_0 : ∀ a, (![0, 0] : Fin 2 → Nat) a + S2048x1024.size a ≤ S2048x1024.size a
  h_S2048x1024 : 0 < S2048x1024.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, ∀ (k0_h1 : k0_cond1 i = 1#1), 512 ∣ k0_mult1.toNat
  k0_off1_inb : ∀ i : grid0.Coords, ∀ (k0_h1 : k0_cond1 i = 1#1), ∀ (r : Fin 4), ∀ a, (k0_off1 (BitVec.ofNat 32 r.val)) a + S1x512x1024.size a ≤ S1x2048x1024.size a
  k0_off2_inb : ∀ i : grid0.Coords, ∀ (k0_h1 : k0_cond1 i = 1#1), ∀ (r : Fin 4), ∀ a, (k0_off2 (BitVec.ofNat 32 r.val)) a + S512x1024.size a ≤ S2048x1024.size a
  k0_off2_packedbf16 : ∀ i : grid0.Coords, ∀ (k0_h1 : k0_cond1 i = 1#1), ∀ (r : Fin 4), (Rect.unit (s := S2048x1024) (k0_off2 (BitVec.ofNat 32 r.val)) S512x1024.size (k0_off2_inb i k0_h1 r)).PackedRows (EltTy.packing .bf16)
  k0_mult2_dvd : ∀ i : grid0.Coords, ∀ (k0_h1 : k0_cond1 i = 1#1), 512 ∣ k0_mult2.toNat
  k0_mult3_dvd : ∀ i : grid0.Coords, ∀ (k0_h1 : k0_cond1 i = 1#1), 512 ∣ k0_mult3.toNat
  k0_mult4_dvd : ∀ i : grid0.Coords, ∀ (k0_h1 : k0_cond1 i = 1#1), 512 ∣ k0_mult4.toNat
  k0_mult5_dvd : ∀ i : grid0.Coords, 256 ∣ (k0_mult5 i).toNat
  k0_off3_inb : ∀ i : grid0.Coords, ∀ a, (k0_off3 i) a + S1x256x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .bf16 = 32 ∨ (Rect.block (s := S4x2048x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x2048x2048.size a
  hwx0_4 : ∀ i : grid0.Coords, EltTy.bits .i32 = 32 ∨ (Rect.block (s := S4x2048x2048) S1x256x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S4x2048x2048.size a
  hwx0_5 : ∀ i : grid0.Coords, EltTy.bits .f32 = 32 ∨ (Rect.block (s := S4x2048x2048) S1x256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S4x2048x1024.size a
  hwx0_6 : ∀ i : grid0.Coords, EltTy.bits .f32 = 32 ∨ (Rect.block (s := S4x2048x1024) S1x256x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S1x256x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x2048, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .i32⟩
  | .hbm, ⟨13, _⟩ => ⟨S4x2048x2048, .i32⟩
  | .hbm, ⟨14, _⟩ => ⟨S4x2048x2048, .i1⟩
  | .hbm, ⟨15, _⟩ => ⟨S_, .f32⟩
  | .hbm, ⟨16, _⟩ => ⟨S_, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  The attention head both programs compute, index by index over the extended reals, with nothing of either
  program in it. For a batch entry b, a query row q, a key row k and a hidden column h:
    proj x W b n h   = ∑_d x[b,n,d] · W[h,d]                       (a projection x·Wᵀ)
    score            = ∑_h Q[b,q,h] · K[b,k,h]                     (Q, K, V the three projections)
    logit            = −∞ where mask[b,q,k] = 0, else score · (1/32)
    softmax s k      = exp(s k − max s) / ∑_k' exp(s k' − max s)   (the maximum folded from −∞)
    alpha            = softmax of the logit row
    out              = ∑_k alpha[b,q,k] · V[b,k,h]
  The row-level pieces (`rowLogit`, `softmax`) take a row as a function, so that a block of 256 query rows and the
  whole array are read through the same definitions. The three float literals that occur are evaluated once here:
  the pattern of −∞, the scale 2⁻⁵ and the divisor 32, and division by 32 is multiplication by 2⁻⁵ on every
  extended real.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- activations [4, 2048, 1024], masks and attention weights [4, 2048, 2048], a projection matrix [1024, 1024],
    one batch entry's keys or values [2048, 1024]. -/
abbrev SX : Shape := ⟨3, ![4, 2048, 1024]⟩
abbrev SM : Shape := ⟨3, ![4, 2048, 2048]⟩
abbrev SW : Shape := ⟨2, ![1024, 1024]⟩
abbrev SK : Shape := ⟨2, ![2048, 1024]⟩

/-- The scale 1/√1024 = 2⁻⁵ as an extended real. -/
abbrev scale : EReal := ((1 / 32 : ℝ) : EReal)

/-- Row (b, n) of `x` against row `h` of `W`: entry (b, n, h) of x·Wᵀ. -/
def proj (x : SX.Idx → EReal) (W : SW.Idx → EReal) (b : Fin 4) (n : Fin 2048) (h : Fin 1024) : EReal :=
  ∑ d : Fin 1024, x (ix3 b n d) * W (ix2 h d)

/-- One batch entry's projection as a [2048, 1024] array. -/
def projArr (x : SX.Idx → EReal) (W : SW.Idx → EReal) (b : Fin 4) : SK.Idx → EReal :=
  fun i => proj x W b (i 0) (i 1)

/-- The masked, scaled logits of one query row: the row `qrow` of Q against every row of `K`, −∞ where the mask row is 0. -/
def rowLogit (qrow : Fin 1024 → EReal) (K : SK.Idx → EReal) (mrow : Fin 2048 → BitVec 32) (k : Fin 2048) : EReal :=
  Scalar.select (IntOp.cmpi .eq (mrow k) 0#32) ⊥ ((∑ h : Fin 1024, qrow h * K (ix2 k h)) * scale)

/-- The maximum of a row, folded from −∞. -/
def rowMax (s : Fin 2048 → EReal) : EReal := (Finset.univ : Finset (Fin 2048)).fold max ⊥ s

/-- The softmax of a row, as both programs spell it: shift by the maximum, exponentiate, divide by the sum. -/
def softmax (s : Fin 2048 → EReal) (k : Fin 2048) : EReal :=
  Ideal.div (Ideal.exp (s k - rowMax s)) (∑ k' : Fin 2048, Ideal.exp (s k' - rowMax s))

/-- The logit row of query (b, q). -/
def logit (x : SX.Idx → EReal) (mask : SM.Idx → BitVec 32) (Wq Wk : SW.Idx → EReal) (b : Fin 4) (q : Fin 2048) :
    Fin 2048 → EReal :=
  rowLogit (proj x Wq b q) (projArr x Wk b) (fun k => mask (ix3 b q k))

/-- The attention weights. -/
def alpha (x : SX.Idx → EReal) (mask : SM.Idx → BitVec 32) (Wq Wk : SW.Idx → EReal) (b : Fin 4) (q k : Fin 2048) : EReal :=
  softmax (logit x mask Wq Wk b q) k

/-- The attention output. -/
def out (x : SX.Idx → EReal) (mask : SM.Idx → BitVec 32) (Wq Wk Wv : SW.Idx → EReal) (b : Fin 4) (q : Fin 2048)
    (h : Fin 1024) : EReal :=
  ∑ k : Fin 2048, alpha x mask Wq Wk b q k * proj x Wv b k h

/-- The two results as whole arrays. -/
def alphaArr (x : SX.Idx → EReal) (mask : SM.Idx → BitVec 32) (Wq Wk : SW.Idx → EReal) : SM.Idx → EReal :=
  fun i => alpha x mask Wq Wk (i 0) (i 1) (i 2)

def outArr (x : SX.Idx → EReal) (mask : SM.Idx → BitVec 32) (Wq Wk Wv : SW.Idx → EReal) : SX.Idx → EReal :=
  fun i => out x mask Wq Wk Wv (i 0) (i 1) (i 2)

/-! ## The literals -/

/-- The pattern 0xFF800000 is −∞. -/
theorem ofBits_ninf : Ideal.ofBits .f32 0xFF800000#32 = ⊥ := by
  simp [Ideal.ofBits, Ideal.ieee]

/-- The pattern 0x3D000000 is 2⁻⁵. -/
theorem ofBits_scale : Ideal.ofBits .f32 0x3D000000#32 = scale := by
  simp [Ideal.ofBits, Ideal.ieee, -EReal.coe_mul]; norm_num

/-- The pattern 0x42000000 is 32. -/
theorem ofBits_32 : Ideal.ofBits .f32 0x42000000#32 = ((32 : ℝ) : EReal) := by
  simp [Ideal.ofBits, Ideal.ieee, -EReal.coe_mul]; norm_num

/-- Dividing by the literal 32 is multiplying by 2⁻⁵, at every extended real. -/
theorem div_32 (y : EReal) : Ideal.div y (Ideal.ofBits .f32 0x42000000#32) = y * scale := by
  rw [ofBits_32, Ideal.div_coe (by norm_num : (32 : ℝ) ≠ 0)]

/-- −∞ is neutral for the maximum. -/
theorem max_ninf (y : EReal) : max (⊥ : EReal) y = y := bot_sup_eq y

end Cert.Attn

end
-- ==== Proof.Pieces.lean ====
/-
  What one run of the kernel body leaves in its two output blocks and its two key/value scratch buffers, as values
  of what it loaded. A body run at a grid point reads the query rows of the staged activations (256 rows at the
  offset the point's second coordinate gives), the three weight blocks, the mask block and the two scratch buffers;
  it stores the attention weights (one covering store) and the attention output (one covering store). At the first
  point of a batch entry it first fills each scratch buffer by four stores of 512 rows, and the later loads of the
  scratch buffers read those stores back.
-/
import proofs.«402156_j19112604467527_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 query rows of the staged activations that the body at coordinates `i` loads. -/
abbrev qrows (i : grid0.Coords) (x0 : Vec F S1x2048x1024 .bf16) : Vec F S1x256x1024 .bf16 :=
  View.ld x0 (Rect.unit (s := S1x2048x1024) (k0_off3 i) S1x256x1024.size (k0_off3_inb i))

/-- Away from a batch entry's first point the body stores, as attention weights, the softmax payload of the query
    rows, the query weights, the key scratch as it found it and the mask block. -/
theorem outB5 (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .i32) (harg6 : arg6.IsWhole) (arg7 : Memref sig .tc .vmem S1x256x2048 .f32) (harg7 : arg7.IsWhole) (arg8 : Memref sig .tc .vmem S1x256x1024 .f32) (harg8 : arg8.IsWhole) (arg9 : Memref sig .tc .vmem S2048x1024 .bf16) (harg9 : arg9.IsWhole) (arg10 : Memref sig .tc .vmem S2048x1024 .bf16) (harg10 : arg10.IsWhole) (hc0 : ¬cond0_0 i) (x0 : Vec F S1x2048x1024 .bf16) (x1 : Vec F S1024x1024 .bf16) (x2 : Vec F S1024x1024 .bf16) (x3 : Vec F S1024x1024 .bf16) (x4 : Vec F S1x256x2048 .i32) (xs0 : Vec F S2048x1024 .bf16) (xs1 : Vec F S2048x1024 .bf16) :
    out0_B_5 c i arg2 harg2 arg3 harg3 arg4 harg4 arg5 harg5 arg6 harg6 arg7 harg7 arg8 harg8 arg9 harg9 arg10 harg10 hc0 x0 x1 x2 x3 x4 xs0 xs1 = k0_pay18 (qrows i x0) x1 xs0 x4 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 x3 x4 xs0 xs1)]
  unfold kernelRun0_B
  dsimp only
  sl_unfold_words
  rw [View.canon_unit_zero hz3]
  simp only [View.readAt_eq_ld, harg2.read_unread, harg3.read_unread, harg9.read_unread, harg6.read_unread,
    View.ld_unit_zero (S := S1024x1024) hz2, View.ld_unit_zero (S := S2048x1024) hz2, View.ld_unit_zero (S := S1x256x2048) hz3]
  rfl

/-- … and, as attention output, the product payload of those weights with the value scratch as it found it. -/
theorem outB6 (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .i32) (harg6 : arg6.IsWhole) (arg7 : Memref sig .tc .vmem S1x256x2048 .f32) (harg7 : arg7.IsWhole) (arg8 : Memref sig .tc .vmem S1x256x1024 .f32) (harg8 : arg8.IsWhole) (arg9 : Memref sig .tc .vmem S2048x1024 .bf16) (harg9 : arg9.IsWhole) (arg10 : Memref sig .tc .vmem S2048x1024 .bf16) (harg10 : arg10.IsWhole) (hc0 : ¬cond0_0 i) (x0 : Vec F S1x2048x1024 .bf16) (x1 : Vec F S1024x1024 .bf16) (x2 : Vec F S1024x1024 .bf16) (x3 : Vec F S1024x1024 .bf16) (x4 : Vec F S1x256x2048 .i32) (xs0 : Vec F S2048x1024 .bf16) (xs1 : Vec F S2048x1024 .bf16) :
    out0_B_6 c i arg2 harg2 arg3 harg3 arg4 harg4 arg5 harg5 arg6 harg6 arg7 harg7 arg8 harg8 arg9 harg9 arg10 harg10 hc0 x0 x1 x2 x3 x4 xs0 xs1 = k0_pay1 (k0_pay17 (qrows i x0) x1 xs0 x4) xs1 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 xs0 xs1)]
  unfold kernelRun0_B
  dsimp only
  sl_unfold_words
  rw [View.canon_unit_zero hz3]
  simp only [View.readAt_eq_ld, harg2.read_unread, harg3.read_unread, harg9.read_unread, harg10.read_unread, harg6.read_unread,
    View.ld_unit_zero (S := S1024x1024) hz2, View.ld_unit_zero (S := S2048x1024) hz2, View.ld_unit_zero (S := S1x256x2048) hz3]
  rfl

/-- The key scratch after a batch entry's first point reads as what its four stores leave. -/
theorem soutA0_eq (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .i32) (harg6 : arg6.IsWhole) (arg7 : Memref sig .tc .vmem S1x256x2048 .f32) (harg7 : arg7.IsWhole) (arg8 : Memref sig .tc .vmem S1x256x1024 .f32) (harg8 : arg8.IsWhole) (arg9 : Memref sig .tc .vmem S2048x1024 .bf16) (harg9 : arg9.IsWhole) (arg10 : Memref sig .tc .vmem S2048x1024 .bf16) (harg10 : arg10.IsWhole) (hc0 : cond0_0 i) (x0 : Vec F S1x2048x1024 .bf16) (x1 : Vec F S1024x1024 .bf16) (x2 : Vec F S1024x1024 .bf16) (x3 : Vec F S1024x1024 .bf16) (x4 : Vec F S1x256x2048 .i32) :
    sout0_A_0 c i arg2 harg2 arg3 harg3 arg4 harg4 arg5 harg5 arg6 harg6 arg7 harg7 arg8 harg8 arg9 harg9 arg10 harg10 hc0 x0 x1 x2 x3 x4 = View.canon (kernelRun0_A c i arg2 harg2 arg3 harg3 arg4 harg4 arg5 harg5 arg6 harg6 arg7 harg7 arg8 harg8 arg9 harg9 arg10 harg10 hc0 x0 x1 x2 x3 x4).2.2.1 := by
  unfold sout0_A_0
  exact View.read_writes_eq_canon _ _ _ (scover0_A_0 c i arg2 harg2 arg3 harg3 arg4 harg4 arg5 harg5 arg6 harg6 arg7 harg7 arg8 harg8 arg9 harg9 arg10 harg10 hc0 x0 x1 x2 x3 x4)

/-- The value scratch likewise. -/
theorem soutA1_eq (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .i32) (harg6 : arg6.IsWhole) (arg7 : Memref sig .tc .vmem S1x256x2048 .f32) (harg7 : arg7.IsWhole) (arg8 : Memref sig .tc .vmem S1x256x1024 .f32) (harg8 : arg8.IsWhole) (arg9 : Memref sig .tc .vmem S2048x1024 .bf16) (harg9 : arg9.IsWhole) (arg10 : Memref sig .tc .vmem S2048x1024 .bf16) (harg10 : arg10.IsWhole) (hc0 : cond0_0 i) (x0 : Vec F S1x2048x1024 .bf16) (x1 : Vec F S1024x1024 .bf16) (x2 : Vec F S1024x1024 .bf16) (x3 : Vec F S1024x1024 .bf16) (x4 : Vec F S1x256x2048 .i32) :
    sout0_A_1 c i arg2 harg2 arg3 harg3 arg4 harg4 arg5 harg5 arg6 harg6 arg7 harg7 arg8 harg8 arg9 harg9 arg10 harg10 hc0 x0 x1 x2 x3 x4 = View.canon (kernelRun0_A c i arg2 harg2 arg3 harg3 arg4 harg4 arg5 harg5 arg6 harg6 arg7 harg7 arg8 harg8 arg9 harg9 arg10 harg10 hc0 x0 x1 x2 x3 x4).2.2.2.1 := by
  unfold sout0_A_1
  exact View.read_writes_eq_canon _ _ _ (scover0_A_1 c i arg2 harg2 arg3 harg3 arg4 harg4 arg5 harg5 arg6 harg6 arg7 harg7 arg8 harg8 arg9 harg9 arg10 harg10 hc0 x0 x1 x2 x3 x4)

/-- At a batch entry's first point the attention weights are the same payload, over the key scratch the point has
    just filled: the load of the whole scratch reads the four stores back. -/
theorem outA5 (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .i32) (harg6 : arg6.IsWhole) (arg7 : Memref sig .tc .vmem S1x256x2048 .f32) (harg7 : arg7.IsWhole) (arg8 : Memref sig .tc .vmem S1x256x1024 .f32) (harg8 : arg8.IsWhole) (arg9 : Memref sig .tc .vmem S2048x1024 .bf16) (harg9 : arg9.IsWhole) (arg10 : Memref sig .tc .vmem S2048x1024 .bf16) (harg10 : arg10.IsWhole) (hc0 : cond0_0 i) (x0 : Vec F S1x2048x1024 .bf16) (x1 : Vec F S1024x1024 .bf16) (x2 : Vec F S1024x1024 .bf16) (x3 : Vec F S1024x1024 .bf16) (x4 : Vec F S1x256x2048 .i32) :
    out0_A_5 c i arg2 harg2 arg3 harg3 arg4 harg4 arg5 harg5 arg6 harg6 arg7 harg7 arg8 harg8 arg9 harg9 arg10 harg10 hc0 x0 x1 x2 x3 x4 = k0_pay18 (qrows i x0) x1 (sout0_A_0 c i arg2 harg2 arg3 harg3 arg4 harg4 arg5 harg5 arg6 harg6 arg7 harg7 arg8 harg8 arg9 harg9 arg10 harg10 hc0 x0 x1 x2 x3 x4) x4 := by
  rw [soutA0_eq]
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero hz3]
  rw [View.readCov_eq_canon_ld _ _ _ (by exact scover0_A_0 c i arg2 harg2 arg3 harg3 arg4 harg4 arg5 harg5 arg6 harg6 arg7 harg7 arg8 harg8 arg9 harg9 arg10 harg10 hc0 x0 x1 x2 x3 x4)]
  simp only [View.readAt_eq_ld, harg2.read_unread, harg3.read_unread, harg6.read_unread,
    View.ld_unit_zero (S := S1024x1024) hz2, View.ld_unit_zero (S := S2048x1024) hz2, View.ld_unit_zero (S := S1x256x2048) hz3]
  rfl

/-- … and the attention output the product payload of those weights with the value scratch the point has just filled. -/
theorem outA6 (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .i32) (harg6 : arg6.IsWhole) (arg7 : Memref sig .tc .vmem S1x256x2048 .f32) (harg7 : arg7.IsWhole) (arg8 : Memref sig .tc .vmem S1x256x1024 .f32) (harg8 : arg8.IsWhole) (arg9 : Memref sig .tc .vmem S2048x1024 .bf16) (harg9 : arg9.IsWhole) (arg10 : Memref sig .tc .vmem S2048x1024 .bf16) (harg10 : arg10.IsWhole) (hc0 : cond0_0 i) (x0 : Vec F S1x2048x1024 .bf16) (x1 : Vec F S1024x1024 .bf16) (x2 : Vec F S1024x1024 .bf16) (x3 : Vec F S1024x1024 .bf16) (x4 : Vec F S1x256x2048 .i32) :
    out0_A_6 c i arg2 harg2 arg3 harg3 arg4 harg4 arg5 harg5 arg6 harg6 arg7 harg7 arg8 harg8 arg9 harg9 arg10 harg10 hc0 x0 x1 x2 x3 x4 = k0_pay1 (k0_pay17 (qrows i x0) x1 (sout0_A_0 c i arg2 harg2 arg3 harg3 arg4 harg4 arg5 harg5 arg6 harg6 arg7 harg7 arg8 harg8 arg9 harg9 arg10 harg10 hc0 x0 x1 x2 x3 x4) x4) (sout0_A_1 c i arg2 harg2 arg3 harg3 arg4 harg4 arg5 harg5 arg6 harg6 arg7 harg7 arg8 harg8 arg9 harg9 arg10 harg10 hc0 x0 x1 x2 x3 x4) := by
  rw [soutA0_eq, soutA1_eq]
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero hz3]
  rw [View.readCov_eq_canon_ld arg9.view _ _ (by exact scover0_A_0 c i arg2 harg2 arg3 harg3 arg4 harg4 arg5 harg5 arg6 harg6 arg7 harg7 arg8 harg8 arg9 harg9 arg10 harg10 hc0 x0 x1 x2 x3 x4),
    View.readCov_eq_canon_ld arg10.view _ _ (by exact scover0_A_1 c i arg2 harg2 arg3 harg3 arg4 harg4 arg5 harg5 arg6 harg6 arg7 harg7 arg8 harg8 arg9 harg9 arg10 harg10 hc0 x0 x1 x2 x3 x4)]
  simp only [View.readAt_eq_ld, harg2.read_unread, harg3.read_unread, harg6.read_unread,
    View.ld_unit_zero (S := S1024x1024) hz2, View.ld_unit_zero (S := S2048x1024) hz2, View.ld_unit_zero (S := S1x256x2048) hz3]
  rfl

end Cert.KernelIdeal.Pieces

end
-- ==== Proof.Inputs.lean ====
import proofs.«402156_j19112604467527_3_alg».proof.Proof.Gen.KernelIdeal.Value
import proofs.«402156_j19112604467527_3_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

/-! What the kernel's input windows hold at a grid point, entry by entry, in terms of the program's arguments.
    The grid is (batch entry, query tile): point `t` is batch entry `t / 8`, tile `t % 8`. The activations window
    holds the whole batch entry; the three weight windows hold the transposed weight matrices (the host transposes
    them before the call; the change of float format is the identity on extended reals); the mask window holds the
    tile's 256 rows of the batch entry's mask. -/

namespace Cert.KernelIdeal.Inp

open Cert.KernelIdeal Cert.KernelIdeal.Gen Cert.Attn

variable (m : (ℓ : Loc nD τ sig) → Buf (Elt Ideal) ℓ)

/-- The four arrays the host operations write before the call. -/
theorem V_v0 (c : Dev nD) : @Eq (FVec Ideal S4x2048x1024 .bf16) (V m c main_v0) (truncf .bf16 (m ((c : Thread nD τ).loc main_arg0)) bitsLt_bf16_f32) := by
  dsimp only [V, hostOps0]; after_results

theorem V_v2 (c : Dev nD) : @Eq (FVec Ideal S1024x1024 .bf16) (V m c main_v2) (truncf .bf16 (transpose S1024x1024 [1, 0] (m ((c : Thread nD τ).loc main_arg2)) transposes_S1024x1024_S1024x1024_1_0) bitsLt_bf16_f32) := by
  dsimp only [V, hostOps0]; after_results

theorem V_v4 (c : Dev nD) : @Eq (FVec Ideal S1024x1024 .bf16) (V m c main_v4) (truncf .bf16 (transpose S1024x1024 [1, 0] (m ((c : Thread nD τ).loc main_arg3)) transposes_S1024x1024_S1024x1024_1_0) bitsLt_bf16_f32) := by
  dsimp only [V, hostOps0]; after_results

theorem V_v6 (c : Dev nD) : @Eq (FVec Ideal S1024x1024 .bf16) (V m c main_v6) (truncf .bf16 (transpose S1024x1024 [1, 0] (m ((c : Thread nD τ).loc main_arg4)) transposes_S1024x1024_S1024x1024_1_0) bitsLt_bf16_f32) := by
  dsimp only [V, hostOps0]; after_results

/-- The five input blocks at a point, at their literal types. -/
abbrev xb (c : Dev nD) (t : Fin cfg0.N) : Vec Ideal S1x2048x1024 .bf16 := iblk m c 0 t
abbrev wqb (c : Dev nD) (t : Fin cfg0.N) : Vec Ideal S1024x1024 .bf16 := iblk m c 1 t
abbrev wkb (c : Dev nD) (t : Fin cfg0.N) : Vec Ideal S1024x1024 .bf16 := iblk m c 2 t
abbrev wvb (c : Dev nD) (t : Fin cfg0.N) : Vec Ideal S1024x1024 .bf16 := iblk m c 3 t
abbrev mb (c : Dev nD) (t : Fin cfg0.N) : Vec Ideal S1x256x2048 .i32 := iblk m c 4 t

/-- The block indices of the windows, decided over the 32 points. -/
theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, win0_0.index t (0 : Fin 3) = t.val / 8 ∧ win0_0.index t (1 : Fin 3) = 0 ∧ win0_0.index t (2 : Fin 3) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, win0_4.index t (0 : Fin 3) = t.val / 8 ∧ win0_4.index t (1 : Fin 3) = t.val % 8 ∧ win0_4.index t (2 : Fin 3) = 0)

/-- The activations block at point `t` is batch entry `t / 8` of the argument. -/
theorem xb_apply (c : Dev nD) (t : Fin cfg0.N) (hb : t.val / 8 < 4) (n : Fin 2048) (d : Fin 1024) :
    xb m c t (ix3 0 n d) = m ((c : Thread nD τ).loc main_arg0) (ix3 ⟨t.val / 8, hb⟩ n d) := by
  show iblk m c 0 t (ix3 0 n d) = _
  unfold iblk
  rw [View.read_apply]
  show V m c main_v0 _ = _
  refine (congrFun (V_v0 m c) _).trans ?_
  show m ((c : Thread nD τ).loc main_arg0) _ = m ((c : Thread nD τ).loc main_arg0) _
  congr 1
  funext a
  apply Fin.ext
  obtain ⟨h0, h1, h2⟩ := idx0 t
  match a with
  | ⟨0, _⟩ => show win0_0.index t 0 * 1 + 1 * 0 = t.val / 8; rw [h0]; omega
  | ⟨1, _⟩ => show win0_0.index t 1 * 2048 + 1 * n.val = n.val; rw [h1]; omega
  | ⟨2, _⟩ => show win0_0.index t 2 * 1024 + 1 * d.val = d.val; rw [h2]; omega

/-- The query-weight block is the transposed argument: entry (d, h) is `Wq[h, d]`. -/
theorem wqb_apply (c : Dev nD) (t : Fin cfg0.N) (d h : Fin 1024) :
    wqb m c t (ix2 d h) = m ((c : Thread nD τ).loc main_arg2) (ix2 h d) := by
  show iblk m c 1 t (ix2 d h) = _
  unfold iblk
  rw [View.read_apply]
  show V m c main_v2 _ = _
  refine (congrFun (V_v2 m c) _).trans ?_
  show transpose S1024x1024 [1, 0] (m ((c : Thread nD τ).loc main_arg2)) transposes_S1024x1024_S1024x1024_1_0 _ = _
  obtain ⟨h0, h1⟩ := idx1 t
  refine transpose_apply [1, 0] _ _ _ (ix2 h d) fun b => ?_
  match b with
  | ⟨0, _⟩ => show d.val = win0_1.index t 0 * 1024 + 1 * d.val; rw [h0]; omega
  | ⟨1, _⟩ => show h.val = win0_1.index t 1 * 1024 + 1 * h.val; rw [h1]; omega

/-- The key-weight block likewise. -/
theorem wkb_apply (c : Dev nD) (t : Fin cfg0.N) (d h : Fin 1024) :
    wkb m c t (ix2 d h) = m ((c : Thread nD τ).loc main_arg3) (ix2 h d) := by
  show iblk m c 2 t (ix2 d h) = _
  unfold iblk
  rw [View.read_apply]
  show V m c main_v4 _ = _
  refine (congrFun (V_v4 m c) _).trans ?_
  show transpose S1024x1024 [1, 0] (m ((c : Thread nD τ).loc main_arg3)) transposes_S1024x1024_S1024x1024_1_0 _ = _
  obtain ⟨h0, h1⟩ := idx2 t
  refine transpose_apply [1, 0] _ _ _ (ix2 h d) fun b => ?_
  match b with
  | ⟨0, _⟩ => show d.val = win0_2.index t 0 * 1024 + 1 * d.val; rw [h0]; omega
  | ⟨1, _⟩ => show h.val = win0_2.index t 1 * 1024 + 1 * h.val; rw [h1]; omega

/-- The value-weight block likewise. -/
theorem wvb_apply (c : Dev nD) (t : Fin cfg0.N) (d h : Fin 1024) :
    wvb m c t (ix2 d h) = m ((c : Thread nD τ).loc main_arg4) (ix2 h d) := by
  show iblk m c 3 t (ix2 d h) = _
  unfold iblk
  rw [View.read_apply]
  show V m c main_v6 _ = _
  refine (congrFun (V_v6 m c) _).trans ?_
  show transpose S1024x1024 [1, 0] (m ((c : Thread nD τ).loc main_arg4)) transposes_S1024x1024_S1024x1024_1_0 _ = _
  obtain ⟨h0, h1⟩ := idx3 t
  refine transpose_apply [1, 0] _ _ _ (ix2 h d) fun b => ?_
  match b with
  | ⟨0, _⟩ => show d.val = win0_3.index t 0 * 1024 + 1 * d.val; rw [h0]; omega
  | ⟨1, _⟩ => show h.val = win0_3.index t 1 * 1024 + 1 * h.val; rw [h1]; omega

/-- The mask block at point `t` is rows `256·(t % 8) …` of batch entry `t / 8` of the mask argument. -/
theorem mb_apply (c : Dev nD) (t : Fin cfg0.N) (hb : t.val / 8 < 4) (r : Fin 256) (hq : 256 * (t.val % 8) + r.val < 2048) (k : Fin 2048) :
    mb m c t (ix3 0 r k) = m ((c : Thread nD τ).loc main_arg1) (ix3 ⟨t.val / 8, hb⟩ ⟨256 * (t.val % 8) + r.val, hq⟩ k) := by
  show iblk m c 4 t (ix3 0 r k) = _
  unfold iblk
  rw [View.read_apply]
  show V m c main_arg1 _ = _
  rw [V_main_arg1]
  show m ((c : Thread nD τ).loc main_arg1) _ = m ((c : Thread nD τ).loc main_arg1) _
  congr 1
  funext a
  apply Fin.ext
  obtain ⟨h0, h1, h2⟩ := idx4 t
  match a with
  | ⟨0, _⟩ => show win0_4.index t 0 * 1 + 1 * 0 = t.val / 8; rw [h0]; omega
  | ⟨1, _⟩ => show win0_4.index t 1 * 256 + 1 * r.val = 256 * (t.val % 8) + r.val; rw [h1]; omega
  | ⟨2, _⟩ => show win0_4.index t 2 * 2048 + 1 * k.val = k.val; rw [h2]; omega

end Cert.KernelIdeal.Inp

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.Payloads.lean ====
/-
  The kernel body's pure payloads read at an index, over the extended reals.

  Each payload is the body's arithmetic as one term of the values loaded before it. Read at an index:
    * a key/value chunk payload is a [512,1024] block of a projection, entry (r, h) the sum over d of the loaded
      chunk's row r against column h of the weight block;
    * the attention-weight payload at (r, k) is the softmax of the masked, scaled logit row of query row r, the
      logits the query row (itself a projection of the loaded rows) against every key row, −∞ where the mask is 0;
    * the output payload at (0, r, h) is the sum over k of the weight block's row r against column h of the values.
  A product of two blocks is read through its contraction index, one lemma per shape of product; the softmax is first
  read for any block of 256 logit rows (row maximum, shifted exponential, row sum, quotient) and then composed with
  the logit block. A change of float format is the identity here, and a cast of a block to its own shape is too.
-/
import proofs.«402156_j19112604467527_3_alg».proof.Proof.Gen.KernelIdeal.Skeleton
import proofs.«402156_j19112604467527_3_alg».proof.Proof.Spec
import proofs.«402156_j19112604467527_3_alg».proof.Proof.LibVecRows
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value

noncomputable section

namespace Cert.KernelIdeal.Pay

open Cert.KernelIdeal Cert.KernelIdeal.Gen Cert.Attn Idealize.ShloMosaic Idealize.ShloMosaic.ValueIdx

/-! ## Indices with a leading unit axis -/

/-- The leading-unit index (0, r, d) is the rank-2 index (r, d) with 0 put in front. -/
theorem cons_ix2 {n0 n1 : ℕ} (r : Fin n0) (d : Fin n1) :
    (Fin.cons (⟨0, Nat.one_pos⟩ : Fin 1) (ix2 r d) : (⟨3, ![1, n0, n1]⟩ : Shape).Idx) = ix3 (0 : Fin 1) r d := by
  funext c
  match c with
  | ⟨0, _⟩ => rfl
  | ⟨1, _⟩ => rfl
  | ⟨2, _⟩ => rfl

/-- Dropping the leading coordinate of (0, r, k) leaves (r, k). -/
theorem succ_ix3 {n0 n1 : ℕ} (r : Fin n0) (k : Fin n1) :
    ((fun a => (ix3 (0 : Fin 1) r k) a.succ) : (⟨2, ![n0, n1]⟩ : Shape).Idx) = ix2 r k := by
  funext a
  match a with
  | ⟨0, _⟩ => rfl
  | ⟨1, _⟩ => rfl

/-! ## The four products at an index

For each shape of product: the operand indices at an output index and a contraction index, axis by axis (the kept axis
reads the output coordinate, the contracted axis the contraction coordinate), then the product into the zero block as a
sum over the contraction coordinate. -/
theorem d512_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem d512_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem d512_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem d512_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- The [512,1024] × [1024,1024] product into the zero block, read at (r, c). -/
theorem matmul512_apply (a : FVec Ideal S512x1024 .bf16) (w : FVec Ideal S1024x1024 .bf16) (r : Fin 512) (c : Fin 1024) :
    matmul dot_S512x1024_S1024x1024_S512x1024_1_0_0_1_n_n none a w (constant (F := Ideal) S512x1024 .f32 0x00000000#32) (ix2 r c)
      = ∑ k : Fin 1024, a (ix2 r k) * w (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun x => Fin.ext (by
    match x with
    | ⟨0, _⟩ => exact d512_lhs_0 _ _
    | ⟨1, _⟩ => exact (d512_lhs_1 _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun x => Fin.ext (by
    match x with
    | ⟨0, _⟩ => exact (d512_rhs_0 _ _).trans hk
    | ⟨1, _⟩ => exact d512_rhs_1 _ _)
  rw [el, er]
theorem dq_lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem dq_lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem dq_rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
theorem dq_rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q

/-- The [256,1024] × [1024,1024] product into the zero block, read at (r, c). -/
theorem matmulQ_apply (a : FVec Ideal S256x1024 .bf16) (w : FVec Ideal S1024x1024 .bf16) (r : Fin 256) (c : Fin 1024) :
    matmul dot_S256x1024_S1024x1024_S256x1024_1_0_0_1_n_n none a w (constant (F := Ideal) S256x1024 .f32 0x00000000#32) (ix2 r c)
      = ∑ k : Fin 1024, a (ix2 r k) * w (ix2 k c) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c) ((contrEquiv1 dot_S256x1024_S1024x1024_S256x1024_1_0_0_1_n_n 1024 rfl rfl).symm k) = ix2 r k := funext fun x => Fin.ext (by
    match x with
    | ⟨0, _⟩ => exact dq_lhs_0 _ _
    | ⟨1, _⟩ => exact (dq_lhs_1 _ _).trans hk)
  have er : dot_S256x1024_S1024x1024_S256x1024_1_0_0_1_n_n.rhsIdx (ix2 r c) ((contrEquiv1 dot_S256x1024_S1024x1024_S256x1024_1_0_0_1_n_n 1024 rfl rfl).symm k) = ix2 k c := funext fun x => Fin.ext (by
    match x with
    | ⟨0, _⟩ => exact (dq_rhs_0 _ _).trans hk
    | ⟨1, _⟩ => exact dq_rhs_1 _ _)
  rw [el, er]
theorem ds_lhs_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem ds_lhs_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem ds_rhs_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem ds_rhs_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- The [256,1024] × [2048,1024] product over the second axis of both operands, read at (r, c): row r against row c. -/
theorem matmulS_apply (a : FVec Ideal S256x1024 .bf16) (w : FVec Ideal S2048x1024 .bf16) (r : Fin 256) (c : Fin 2048) :
    matmul dot_S256x1024_S2048x1024_S256x2048_1_1_0_0_n_n none a w (constant (F := Ideal) S256x2048 .f32 0x00000000#32) (ix2 r c)
      = ∑ k : Fin 1024, a (ix2 r k) * w (ix2 c k) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 r c) ((contrEquiv1 dot_S256x1024_S2048x1024_S256x2048_1_1_0_0_n_n 1024 rfl rfl).symm k) = ix2 r k := funext fun x => Fin.ext (by
    match x with
    | ⟨0, _⟩ => exact ds_lhs_0 _ _
    | ⟨1, _⟩ => exact (ds_lhs_1 _ _).trans hk)
  have er : dot_S256x1024_S2048x1024_S256x2048_1_1_0_0_n_n.rhsIdx (ix2 r c) ((contrEquiv1 dot_S256x1024_S2048x1024_S256x2048_1_1_0_0_n_n 1024 rfl rfl).symm k) = ix2 c k := funext fun x => Fin.ext (by
    match x with
    | ⟨0, _⟩ => exact ds_rhs_0 _ _
    | ⟨1, _⟩ => exact (ds_rhs_1 _ _).trans hk)
  rw [el, er]
theorem dout_lhs_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem dout_lhs_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem dout_rhs_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
theorem dout_rhs_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q

/-- The [256,2048] × [2048,1024] product into the zero block, read at (r, c). -/
theorem matmulO_apply (a : FVec Ideal S256x2048 .bf16) (w : FVec Ideal S2048x1024 .bf16) (r : Fin 256) (c : Fin 1024) :
    matmul dot_S256x2048_S2048x1024_S256x1024_1_0_0_1_n_n none a w (constant (F := Ideal) S256x1024 .f32 0x00000000#32) (ix2 r c)
      = ∑ k : Fin 2048, a (ix2 r k) * w (ix2 k c) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r c) ((contrEquiv1 dot_S256x2048_S2048x1024_S256x1024_1_0_0_1_n_n 2048 rfl rfl).symm k) = ix2 r k := funext fun x => Fin.ext (by
    match x with
    | ⟨0, _⟩ => exact dout_lhs_0 _ _
    | ⟨1, _⟩ => exact (dout_lhs_1 _ _).trans hk)
  have er : dot_S256x2048_S2048x1024_S256x1024_1_0_0_1_n_n.rhsIdx (ix2 r c) ((contrEquiv1 dot_S256x2048_S2048x1024_S256x1024_1_0_0_1_n_n 2048 rfl rfl).symm k) = ix2 k c := funext fun x => Fin.ext (by
    match x with
    | ⟨0, _⟩ => exact (dout_rhs_0 _ _).trans hk
    | ⟨1, _⟩ => exact dout_rhs_1 _ _)
  rw [el, er]

/-! ## The key/value chunk payloads -/

/-- A chunk of 512 rows, loaded as [1,512,1024] and viewed [512,1024], against a [1024,1024] weight block, in bf16
    (a change of format is the identity on the extended reals). -/
def chunkMM (x : Vec Ideal S1x512x1024 .bf16) (w : Vec Ideal S1024x1024 .bf16) : FVec Ideal S512x1024 .bf16 :=
  truncf .bf16 (matmul dot_S512x1024_S1024x1024_S512x1024_1_0_0_1_n_n none
      (shapeCast S512x1024 x shapeCasts_S1x512x1024_S512x1024 : FVec Ideal S512x1024 .bf16)
      (shapeCast S1024x1024 w shapeCasts_S1024x1024_S1024x1024 : FVec Ideal S1024x1024 .bf16)
      (constant (F := Ideal) S512x1024 .f32 0x00000000#32)) bitsLt_bf16_f32

theorem chunkMM_apply (x : Vec Ideal S1x512x1024 .bf16) (w : Vec Ideal S1024x1024 .bf16) (r : Fin 512) (h : Fin 1024) :
    chunkMM x w (ix2 r h) = ∑ d : Fin 1024, x (ix3 0 r d) * w (ix2 d h) := by
  unfold chunkMM
  rw [truncf_apply, matmul512_apply, shapeCast_self]
  refine Finset.sum_congr rfl fun d _ => ?_
  refine congrArg (· * w (ix2 d h)) ?_
  exact (shapeCast_dropUnit_apply ![512, 1024] x shapeCasts_S1x512x1024_S512x1024 (ix2 r d)).trans (congrArg x (cons_ix2 r d))

/-- The same block once more viewed at its own shape. -/
theorem chunkMM_cast_apply (x : Vec Ideal S1x512x1024 .bf16) (w : Vec Ideal S1024x1024 .bf16) (r : Fin 512) (h : Fin 1024) :
    shapeCast S512x1024 (chunkMM x w) shapeCasts_S512x1024_S512x1024 (ix2 r h) = ∑ d : Fin 1024, x (ix3 0 r d) * w (ix2 d h) := by
  rw [shapeCast_self]
  exact chunkMM_apply x w r h

theorem pay3_apply (v43 : Vec Ideal S1x512x1024 .bf16) (v45 : Vec Ideal S1024x1024 .bf16) (r : Fin 512) (h : Fin 1024) :
    k0_pay3 (F := Ideal) v43 v45 (ix2 r h) = ∑ d : Fin 1024, v43 (ix3 0 r d) * v45 (ix2 d h) :=
  chunkMM_cast_apply v43 v45 r h

theorem pay4_apply (v43 : Vec Ideal S1x512x1024 .bf16) (v49 : Vec Ideal S1024x1024 .bf16) (r : Fin 512) (h : Fin 1024) :
    k0_pay4 (F := Ideal) v43 v49 (ix2 r h) = ∑ d : Fin 1024, v43 (ix3 0 r d) * v49 (ix2 d h) :=
  chunkMM_cast_apply v43 v49 r h

theorem pay8_apply (v64 : Vec Ideal S1x512x1024 .bf16) (v66 : Vec Ideal S1024x1024 .bf16) (r : Fin 512) (h : Fin 1024) :
    k0_pay8 (F := Ideal) (k0_pay6 v64 v66) (ix2 r h) = ∑ d : Fin 1024, v64 (ix3 0 r d) * v66 (ix2 d h) :=
  chunkMM_cast_apply v64 v66 r h

theorem pay9_apply (v64 : Vec Ideal S1x512x1024 .bf16) (v70 : Vec Ideal S1024x1024 .bf16) (r : Fin 512) (h : Fin 1024) :
    k0_pay9 (F := Ideal) (k0_pay7 v64 v70) (ix2 r h) = ∑ d : Fin 1024, v64 (ix3 0 r d) * v70 (ix2 d h) :=
  chunkMM_cast_apply v64 v70 r h

theorem pay11_apply (v85 : Vec Ideal S1x512x1024 .bf16) (v87 : Vec Ideal S1024x1024 .bf16) (r : Fin 512) (h : Fin 1024) :
    k0_pay11 (F := Ideal) v85 v87 (ix2 r h) = ∑ d : Fin 1024, v85 (ix3 0 r d) * v87 (ix2 d h) :=
  chunkMM_cast_apply v85 v87 r h

theorem pay12_apply (v85 : Vec Ideal S1x512x1024 .bf16) (v91 : Vec Ideal S1024x1024 .bf16) (r : Fin 512) (h : Fin 1024) :
    k0_pay12 (F := Ideal) v85 v91 (ix2 r h) = ∑ d : Fin 1024, v85 (ix3 0 r d) * v91 (ix2 d h) :=
  chunkMM_cast_apply v85 v91 r h

theorem pay15_apply (v106 : Vec Ideal S1x512x1024 .bf16) (v108 : Vec Ideal S1024x1024 .bf16) (r : Fin 512) (h : Fin 1024) :
    k0_pay15 (F := Ideal) (k0_pay14 v106 v108) (ix2 r h) = ∑ d : Fin 1024, v106 (ix3 0 r d) * v108 (ix2 d h) :=
  chunkMM_cast_apply v106 v108 r h

theorem pay16_apply (v106 : Vec Ideal S1x512x1024 .bf16) (v112 : Vec Ideal S1024x1024 .bf16) (r : Fin 512) (h : Fin 1024) :
    k0_pay16 (F := Ideal) (k0_pay13 v106) v112 (ix2 r h) = ∑ d : Fin 1024, v106 (ix3 0 r d) * v112 (ix2 d h) :=
  chunkMM_cast_apply v106 v112 r h

/-! ## The softmax of a block of logit rows -/

/-- The maximum over the second axis of an a × b block, read at row p: the fold of max over the row from the
    initial value. -/
theorem multiReduction_rowmax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (fun k => src (h.lift (ix1 p) k)) = _
  congr 1
  funext k
  refine congrArg src ?_
  funext c
  match c with
  | ⟨0, _⟩ => exact Fin.ext rfl
  | ⟨1, _⟩ => exact Fin.ext rfl

/-- The softmax of a block of 256 logit rows as the kernel spells it. -/
def smBlock (s : FVec Ideal S256x2048 .f32) : FVec Ideal S256x2048 .f32 :=
  divf (exp (subf s (broadcastTo S256x2048 (shapeCast S256x1 (multiReduction (F := Ideal) .maximumf [1] S256 s 0xFF800000#32 reduces_S256x2048_S256 (.inl rfl) rfl) shapeCasts_S256_S256x1) broadcasts_S256x1_S256x2048)))
    (broadcastTo S256x2048 (shapeCast S256x1 (multiReduction (F := Ideal) .add [1] S256
      (exp (subf s (broadcastTo S256x2048 (shapeCast S256x1 (multiReduction (F := Ideal) .maximumf [1] S256 s 0xFF800000#32 reduces_S256x2048_S256 (.inl rfl) rfl) shapeCasts_S256_S256x1) broadcasts_S256x1_S256x2048)))
      0x00000000#32 reduces_S256x2048_S256 (.inl rfl) rfl) shapeCasts_S256_S256x1) broadcasts_S256x1_S256x2048)

/-- The row maximum broadcast back over the block reads the row's maximum. -/
theorem rowmaxB_apply (s : FVec Ideal S256x2048 .f32) (r : Fin 256) (k : Fin 2048) :
    broadcastTo S256x2048 (shapeCast S256x1 (multiReduction (F := Ideal) .maximumf [1] S256 s 0xFF800000#32 reduces_S256x2048_S256 (.inl rfl) rfl) shapeCasts_S256_S256x1) broadcasts_S256x1_S256x2048 (ix2 r k)
      = rowMax (fun k' => s (ix2 r k')) := by
  refine (Cert.LibVecRows.broadcastTo_col_apply _ _ r k).trans ?_
  refine (Cert.LibVecRows.shapeCast_col_apply _ _ r 0).trans ?_
  refine (multiReduction_rowmax_apply s _ _ _ _ r).trans ?_
  rw [ofBits_ninf]
  rfl

/-- The shifted exponential at (r, k). -/
theorem expB_apply (s : FVec Ideal S256x2048 .f32) (r : Fin 256) (k : Fin 2048) :
    exp (subf s (broadcastTo S256x2048 (shapeCast S256x1 (multiReduction (F := Ideal) .maximumf [1] S256 s 0xFF800000#32 reduces_S256x2048_S256 (.inl rfl) rfl) shapeCasts_S256_S256x1) broadcasts_S256x1_S256x2048)) (ix2 r k)
      = Ideal.exp (s (ix2 r k) - rowMax (fun k' => s (ix2 r k'))) := by
  show Ideal.exp (s (ix2 r k) - _) = _
  rw [rowmaxB_apply]

theorem smBlock_apply (s : FVec Ideal S256x2048 .f32) (r : Fin 256) (k : Fin 2048) :
    smBlock s (ix2 r k) = softmax (fun k' => s (ix2 r k')) k := by
  unfold smBlock softmax
  rw [divf_apply, expB_apply]
  refine congrArg (Ideal.div _) ?_
  refine (Cert.LibVecRows.broadcastTo_col_apply _ _ r k).trans ?_
  refine (Cert.LibVecRows.shapeCast_col_apply _ _ r 0).trans ?_
  refine (Cert.LibVecRows.multiReduction_rows_apply _ _ _ _ _ r).trans ?_
  refine Finset.sum_congr rfl fun k' _ => ?_
  rw [expB_apply]

/-! ## The logit block -/

/-- The block of 256 query rows: the loaded [1,256,1024] rows against the [1024,1024] weight block, in bf16. -/
def qBlock (v6 : Vec Ideal S1x256x1024 .bf16) (v8 : Vec Ideal S1024x1024 .bf16) : FVec Ideal S256x1024 .bf16 :=
  truncf .bf16 (matmul dot_S256x1024_S1024x1024_S256x1024_1_0_0_1_n_n none
      (shapeCast S256x1024 v6 shapeCasts_S1x256x1024_S256x1024 : FVec Ideal S256x1024 .bf16)
      (shapeCast S1024x1024 v8 shapeCasts_S1024x1024_S1024x1024 : FVec Ideal S1024x1024 .bf16)
      (constant (F := Ideal) S256x1024 .f32 0x00000000#32)) bitsLt_bf16_f32

theorem qBlock_apply (v6 : Vec Ideal S1x256x1024 .bf16) (v8 : Vec Ideal S1024x1024 .bf16) (r : Fin 256) (h : Fin 1024) :
    qBlock v6 v8 (ix2 r h) = ∑ d : Fin 1024, v6 (ix3 0 r d) * v8 (ix2 d h) := by
  unfold qBlock
  rw [truncf_apply, matmulQ_apply, shapeCast_self]
  refine Finset.sum_congr rfl fun d _ => ?_
  refine congrArg (· * v8 (ix2 d h)) ?_
  exact (shapeCast_dropUnit_apply ![256, 1024] v6 shapeCasts_S1x256x1024_S256x1024 (ix2 r d)).trans (congrArg v6 (cons_ix2 r d))

/-- The masked, scaled logits of the block, as the kernel spells them. -/
def logitBlock (v6 : Vec Ideal S1x256x1024 .bf16) (v8 : Vec Ideal S1024x1024 .bf16) (v12 : Vec Ideal S2048x1024 .bf16)
    (v16 : Vec Ideal S1x256x2048 .i32) : FVec Ideal S256x2048 .f32 :=
  select (cmpi .eq (shapeCast S256x2048 v16 shapeCasts_S1x256x2048_S256x2048 : IVec S256x2048 32) (broadcast S256x2048 0#32))
    (broadcast S256x2048 (Named.named (F := Ideal) κ "neg_big" (φ := .f32) 0xFF333332#32))
    (mulf (matmul (φ₂ := .bf16) dot_S256x1024_S2048x1024_S256x2048_1_1_0_0_n_n none (qBlock v6 v8) v12 (constant (F := Ideal) S256x2048 .f32 0x00000000#32))
      (broadcast S256x2048 (Scalar.ofBits (F := Ideal) .f32 0x3D000000#32)))

/-- The named constant is −∞ on the extended reals, by the table. -/
theorem neg_big : Named.named (F := Ideal) κ "neg_big" (φ := .f32) 0xFF333332#32 = (⊥ : EReal) :=
  IdealRules.named_const.ideal_named_scalar _ _ _ _ rfl

theorem logitBlock_apply (v6 : Vec Ideal S1x256x1024 .bf16) (v8 : Vec Ideal S1024x1024 .bf16) (v12 : Vec Ideal S2048x1024 .bf16)
    (v16 : Vec Ideal S1x256x2048 .i32) (r : Fin 256) (k : Fin 2048) :
    logitBlock v6 v8 v12 v16 (ix2 r k)
      = rowLogit (fun h => ∑ d : Fin 1024, v6 (ix3 0 r d) * v8 (ix2 d h)) v12 (fun k' => v16 (ix3 0 r k')) k := by
  unfold logitBlock rowLogit
  rw [select_apply, mulf_apply, matmulS_apply]
  show Scalar.select (IntOp.cmpi .eq (shapeCast S256x2048 v16 shapeCasts_S1x256x2048_S256x2048 (ix2 r k)) 0#32)
      (Named.named (F := Ideal) κ "neg_big" (φ := .f32) 0xFF333332#32)
      ((∑ h : Fin 1024, qBlock v6 v8 (ix2 r h) * v12 (ix2 k h)) * Ideal.ofBits .f32 0x3D000000#32) = _
  rw [neg_big, ofBits_scale,
    (shapeCast_dropUnit_apply ![256, 2048] v16 shapeCasts_S1x256x2048_S256x2048 (ix2 r k)).trans (congrArg v16 (cons_ix2 r k))]
  refine congrArg (fun y => Scalar.select _ ⊥ (y * scale)) ?_
  refine Finset.sum_congr rfl fun h _ => ?_
  rw [qBlock_apply]

/-! ## The attention weights and the output -/

/-- The kernel's attention-weight block is the softmax block of its logit block. -/
theorem pay17_eq (v6 : Vec Ideal S1x256x1024 .bf16) (v8 : Vec Ideal S1024x1024 .bf16) (v12 : Vec Ideal S2048x1024 .bf16)
    (v16 : Vec Ideal S1x256x2048 .i32) :
    k0_pay17 (F := Ideal) v6 v8 v12 v16 = smBlock (logitBlock v6 v8 v12 v16) := rfl

theorem pay17_apply (v6 : Vec Ideal S1x256x1024 .bf16) (v8 : Vec Ideal S1024x1024 .bf16) (v12 : Vec Ideal S2048x1024 .bf16)
    (v16 : Vec Ideal S1x256x2048 .i32) (r : Fin 256) (k : Fin 2048) :
    k0_pay17 (F := Ideal) v6 v8 v12 v16 (ix2 r k)
      = softmax (rowLogit (fun h => ∑ d : Fin 1024, v6 (ix3 0 r d) * v8 (ix2 d h)) v12 (fun k' => v16 (ix3 0 r k'))) k := by
  rw [pay17_eq, smBlock_apply]
  exact congrArg (fun s => softmax s k) (funext fun k' => logitBlock_apply v6 v8 v12 v16 r k')

theorem pay18_apply (v6 : Vec Ideal S1x256x1024 .bf16) (v8 : Vec Ideal S1024x1024 .bf16) (v12 : Vec Ideal S2048x1024 .bf16)
    (v16 : Vec Ideal S1x256x2048 .i32) (r : Fin 256) (k : Fin 2048) :
    k0_pay18 (F := Ideal) v6 v8 v12 v16 (ix3 0 r k)
      = softmax (rowLogit (fun h => ∑ d : Fin 1024, v6 (ix3 0 r d) * v8 (ix2 d h)) v12 (fun k' => v16 (ix3 0 r k'))) k := by
  refine (shapeCast_addUnit_apply ![256, 2048] (k0_pay17 (F := Ideal) v6 v8 v12 v16) shapeCasts_S256x2048_S1x256x2048 (ix3 0 r k)).trans ?_
  rw [succ_ix3]
  exact pay17_apply v6 v8 v12 v16 r k

theorem pay1_apply (v30 : FVec Ideal S256x2048 .f32) (v35 : Vec Ideal S2048x1024 .bf16) (r : Fin 256) (h : Fin 1024) :
    k0_pay1 (F := Ideal) v30 v35 (ix3 0 r h) = ∑ k : Fin 2048, v30 (ix2 r k) * v35 (ix2 k h) := by
  refine (shapeCast_addUnit_apply ![256, 1024]
    (matmul (φ₂ := .bf16) dot_S256x2048_S2048x1024_S256x1024_1_0_0_1_n_n none (truncf .bf16 v30 bitsLt_bf16_f32) v35
      (constant (F := Ideal) S256x1024 .f32 0x00000000#32)) shapeCasts_S256x1024_S1x256x1024 (ix3 0 r h)).trans ?_
  rw [succ_ix3, matmulO_apply]
  rfl

end Cert.KernelIdeal.Pay

end
-- ==== Proof.PerPoint.lean ====
import proofs.«402156_j19112604467527_3_alg».proof.Proof.Gen.KernelIdeal.Value
import proofs.«402156_j19112604467527_3_alg».proof.Proof.Spec
import proofs.«402156_j19112604467527_3_alg».proof.Proof.Pieces
import proofs.«402156_j19112604467527_3_alg».proof.Proof.Inputs
import proofs.«402156_j19112604467527_3_alg».proof.Proof.Payloads
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

/-! What the kernel leaves after each grid point, read against the specification. Point `t` serves batch entry
    `t / 8` and query rows `256·(t % 8) …`. The two scratch buffers hold the batch entry's key and value projections
    from the entry's first point on (filled there in four chunks of 512 rows, kept by the other seven points), so
    every point's attention-weights block is the softmax of its query rows' logits against all keys, and its output
    block the weighted sum of all values. -/

namespace Cert.KernelIdeal.PerPoint

open Cert.KernelIdeal Cert.KernelIdeal.Gen Cert.Attn Cert.KernelIdeal.Inp Cert.KernelIdeal.Pieces

variable (m : (ℓ : Loc nD τ sig) → Buf (Elt Ideal) ℓ)

/-- The program's five arguments as arrays. -/
abbrev X (c : Dev nD) : SX.Idx → EReal := m ((c : Thread nD τ).loc main_arg0)
abbrev Mk (c : Dev nD) : SM.Idx → BitVec 32 := m ((c : Thread nD τ).loc main_arg1)
abbrev WQ (c : Dev nD) : SW.Idx → EReal := m ((c : Thread nD τ).loc main_arg2)
abbrev WK (c : Dev nD) : SW.Idx → EReal := m ((c : Thread nD τ).loc main_arg3)
abbrev WV (c : Dev nD) : SW.Idx → EReal := m ((c : Thread nD τ).loc main_arg4)

theorem N32 : cfg0.N = 32 := N_0

/-- The batch entry and the query row that point `t` and block row `r` stand for. -/
def bOf (t : Fin cfg0.N) : Fin 4 := ⟨t.val / 8, by have := t.isLt; have := N32; omega⟩
def qOf (t : Fin cfg0.N) (r : Fin 256) : Fin 2048 := ⟨256 * (t.val % 8) + r.val, by have := r.isLt; omega⟩

/-- The grid's second coordinate at point `t` is `t % 8`. -/
theorem coords1 : ∀ t : Fin cfg0.N, (grid0.coords t 1).val = t.val % 8 :=
  (by decide +kernel : ∀ t : Fin grid0.N, (grid0.coords t 1).val = t.val % 8)

/-! ## The scratch buffers -/

/-- A staged batch entry projected by a staged (transposed) weight block: entry (n, h) is ∑_d x[0,n,d] · w[d,h]. -/
def kv (x0 : Vec Ideal S1x2048x1024 .bf16) (w : Vec Ideal S1024x1024 .bf16) : Vec Ideal S2048x1024 .bf16 :=
  fun j => ∑ d : Fin 1024, x0 (ix3 0 (j 0) d) * w (ix2 d (j 1))

/-- The four stores of a batch entry's first point fill the key scratch with the projection: each store's 512 rows
    are the projection's rows at the store's offset. -/
theorem soutA0_kv (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .i32) (harg6 : arg6.IsWhole) (arg7 : Memref sig .tc .vmem S1x256x2048 .f32) (harg7 : arg7.IsWhole) (arg8 : Memref sig .tc .vmem S1x256x1024 .f32) (harg8 : arg8.IsWhole) (arg9 : Memref sig .tc .vmem S2048x1024 .bf16) (harg9 : arg9.IsWhole) (arg10 : Memref sig .tc .vmem S2048x1024 .bf16) (harg10 : arg10.IsWhole) (hc0 : cond0_0 i) (x0 : Vec Ideal S1x2048x1024 .bf16) (x1 : Vec Ideal S1024x1024 .bf16) (x2 : Vec Ideal S1024x1024 .bf16) (x3 : Vec Ideal S1024x1024 .bf16) (x4 : Vec Ideal S1x256x2048 .i32) :
    sout0_A_0 (F := Ideal) c i arg2 harg2 arg3 harg3 arg4 harg4 arg5 harg5 arg6 harg6 arg7 harg7 arg8 harg8 arg9 harg9 arg10 harg10 hc0 x0 x1 x2 x3 x4 = kv x0 x2 := by
  rw [soutA0_eq]
  funext y
  refine View.canon_apply_of_pieces (kv x0 x2) _ ?_ y (scover0_A_0 c i arg2 harg2 arg3 harg3 arg4 harg4 arg5 harg5 arg6 harg6 arg7 harg7 arg8 harg8 arg9 harg9 arg10 harg10 hc0 x0 x1 x2 x3 x4 y)
  unfold kernelRun0_A
  dsimp only
  sl_unfold_words
  intro p hp x
  simp only [List.mem_cons, List.not_mem_nil, or_false] at hp
  rcases hp with rfl | rfl | rfl | rfl
  · -- the store of rows 1536 to 2047
    dsimp only at x ⊢
    obtain ⟨r, h, rfl⟩ : ∃ (r : Fin 512) (h : Fin 1024), x = ix2 r h := ⟨x 0, x 1, eq_ix2 x⟩
    simp only [View.readAt_eq_ld, harg2.read_unread, harg4.read_unread, View.ld_unit_zero (S := S1024x1024) hz2]
    refine (Pay.chunkMM_cast_apply (View.ld x0 (Rect.unit (s := S1x2048x1024) ![0, 1536, 0] S1x512x1024.size (by decide))) x2 r h).trans ?_
    unfold kv
    refine Finset.sum_congr rfl fun d _ => ?_
    refine congrArg₂ (· * ·) (congrArg x0 (funext fun a => Fin.ext ?_)) (congrArg x2 (funext fun a => Fin.ext ?_))
    · match a with
      | ⟨0, _⟩ => rfl
      | ⟨1, _⟩ => rfl
      | ⟨2, _⟩ => show 0 + 1 * d.val = d.val; omega
    · match a with
      | ⟨0, _⟩ => rfl
      | ⟨1, _⟩ => show h.val = 0 + 1 * h.val; omega
  · -- the store of rows 1024 to 1535
    dsimp only at x ⊢
    obtain ⟨r, h, rfl⟩ : ∃ (r : Fin 512) (h : Fin 1024), x = ix2 r h := ⟨x 0, x 1, eq_ix2 x⟩
    simp only [View.readAt_eq_ld, harg2.read_unread, harg4.read_unread, View.ld_unit_zero (S := S1024x1024) hz2]
    refine (Pay.chunkMM_cast_apply (View.ld x0 (Rect.unit (s := S1x2048x1024) ![0, 1024, 0] S1x512x1024.size (by decide))) x2 r h).trans ?_
    unfold kv
    refine Finset.sum_congr rfl fun d _ => ?_
    refine congrArg₂ (· * ·) (congrArg x0 (funext fun a => Fin.ext ?_)) (congrArg x2 (funext fun a => Fin.ext ?_))
    · match a with
      | ⟨0, _⟩ => rfl
      | ⟨1, _⟩ => rfl
      | ⟨2, _⟩ => show 0 + 1 * d.val = d.val; omega
    · match a with
      | ⟨0, _⟩ => rfl
      | ⟨1, _⟩ => show h.val = 0 + 1 * h.val; omega
  · -- the store of rows 512 to 1023
    dsimp only at x ⊢
    obtain ⟨r, h, rfl⟩ : ∃ (r : Fin 512) (h : Fin 1024), x = ix2 r h := ⟨x 0, x 1, eq_ix2 x⟩
    simp only [View.readAt_eq_ld, harg2.read_unread, harg4.read_unread, View.ld_unit_zero (S := S1024x1024) hz2]
    refine (Pay.chunkMM_cast_apply (View.ld x0 (Rect.unit (s := S1x2048x1024) ![0, 512, 0] S1x512x1024.size (by decide))) x2 r h).trans ?_
    unfold kv
    refine Finset.sum_congr rfl fun d _ => ?_
    refine congrArg₂ (· * ·) (congrArg x0 (funext fun a => Fin.ext ?_)) (congrArg x2 (funext fun a => Fin.ext ?_))
    · match a with
      | ⟨0, _⟩ => rfl
      | ⟨1, _⟩ => rfl
      | ⟨2, _⟩ => show 0 + 1 * d.val = d.val; omega
    · match a with
      | ⟨0, _⟩ => rfl
      | ⟨1, _⟩ => show h.val = 0 + 1 * h.val; omega
  · -- the store of rows 0 to 511
    dsimp only at x ⊢
    obtain ⟨r, h, rfl⟩ : ∃ (r : Fin 512) (h : Fin 1024), x = ix2 r h := ⟨x 0, x 1, eq_ix2 x⟩
    simp only [View.readAt_eq_ld, harg2.read_unread, harg4.read_unread, View.ld_unit_zero (S := S1024x1024) hz2]
    refine (Pay.chunkMM_cast_apply (View.ld x0 (Rect.unit (s := S1x2048x1024) ![0, 0, 0] S1x512x1024.size (by decide))) x2 r h).trans ?_
    unfold kv
    refine Finset.sum_congr rfl fun d _ => ?_
    refine congrArg₂ (· * ·) (congrArg x0 (funext fun a => Fin.ext ?_)) (congrArg x2 (funext fun a => Fin.ext ?_))
    · match a with
      | ⟨0, _⟩ => rfl
      | ⟨1, _⟩ => rfl
      | ⟨2, _⟩ => show 0 + 1 * d.val = d.val; omega
    · match a with
      | ⟨0, _⟩ => rfl
      | ⟨1, _⟩ => show h.val = 0 + 1 * h.val; omega

/-- The value scratch likewise. -/
theorem soutA1_kv (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .i32) (harg6 : arg6.IsWhole) (arg7 : Memref sig .tc .vmem S1x256x2048 .f32) (harg7 : arg7.IsWhole) (arg8 : Memref sig .tc .vmem S1x256x1024 .f32) (harg8 : arg8.IsWhole) (arg9 : Memref sig .tc .vmem S2048x1024 .bf16) (harg9 : arg9.IsWhole) (arg10 : Memref sig .tc .vmem S2048x1024 .bf16) (harg10 : arg10.IsWhole) (hc0 : cond0_0 i) (x0 : Vec Ideal S1x2048x1024 .bf16) (x1 : Vec Ideal S1024x1024 .bf16) (x2 : Vec Ideal S1024x1024 .bf16) (x3 : Vec Ideal S1024x1024 .bf16) (x4 : Vec Ideal S1x256x2048 .i32) :
    sout0_A_1 (F := Ideal) c i arg2 harg2 arg3 harg3 arg4 harg4 arg5 harg5 arg6 harg6 arg7 harg7 arg8 harg8 arg9 harg9 arg10 harg10 hc0 x0 x1 x2 x3 x4 = kv x0 x3 := by
  rw [soutA1_eq]
  funext y
  refine View.canon_apply_of_pieces (kv x0 x3) _ ?_ y (scover0_A_1 c i arg2 harg2 arg3 harg3 arg4 harg4 arg5 harg5 arg6 harg6 arg7 harg7 arg8 harg8 arg9 harg9 arg10 harg10 hc0 x0 x1 x2 x3 x4 y)
  unfold kernelRun0_A
  dsimp only
  sl_unfold_words
  intro p hp x
  simp only [List.mem_cons, List.not_mem_nil, or_false] at hp
  rcases hp with rfl | rfl | rfl | rfl
  · -- the store of rows 1536 to 2047
    dsimp only at x ⊢
    obtain ⟨r, h, rfl⟩ : ∃ (r : Fin 512) (h : Fin 1024), x = ix2 r h := ⟨x 0, x 1, eq_ix2 x⟩
    simp only [View.readAt_eq_ld, harg2.read_unread, harg5.read_unread, View.ld_unit_zero (S := S1024x1024) hz2]
    refine (Pay.chunkMM_cast_apply (View.ld x0 (Rect.unit (s := S1x2048x1024) ![0, 1536, 0] S1x512x1024.size (by decide))) x3 r h).trans ?_
    unfold kv
    refine Finset.sum_congr rfl fun d _ => ?_
    refine congrArg₂ (· * ·) (congrArg x0 (funext fun a => Fin.ext ?_)) (congrArg x3 (funext fun a => Fin.ext ?_))
    · match a with
      | ⟨0, _⟩ => rfl
      | ⟨1, _⟩ => rfl
      | ⟨2, _⟩ => show 0 + 1 * d.val = d.val; omega
    · match a with
      | ⟨0, _⟩ => rfl
      | ⟨1, _⟩ => show h.val = 0 + 1 * h.val; omega
  · -- the store of rows 1024 to 1535
    dsimp only at x ⊢
    obtain ⟨r, h, rfl⟩ : ∃ (r : Fin 512) (h : Fin 1024), x = ix2 r h := ⟨x 0, x 1, eq_ix2 x⟩
    simp only [View.readAt_eq_ld, harg2.read_unread, harg5.read_unread, View.ld_unit_zero (S := S1024x1024) hz2]
    refine (Pay.chunkMM_cast_apply (View.ld x0 (Rect.unit (s := S1x2048x1024) ![0, 1024, 0] S1x512x1024.size (by decide))) x3 r h).trans ?_
    unfold kv
    refine Finset.sum_congr rfl fun d _ => ?_
    refine congrArg₂ (· * ·) (congrArg x0 (funext fun a => Fin.ext ?_)) (congrArg x3 (funext fun a => Fin.ext ?_))
    · match a with
      | ⟨0, _⟩ => rfl
      | ⟨1, _⟩ => rfl
      | ⟨2, _⟩ => show 0 + 1 * d.val = d.val; omega
    · match a with
      | ⟨0, _⟩ => rfl
      | ⟨1, _⟩ => show h.val = 0 + 1 * h.val; omega
  · -- the store of rows 512 to 1023
    dsimp only at x ⊢
    obtain ⟨r, h, rfl⟩ : ∃ (r : Fin 512) (h : Fin 1024), x = ix2 r h := ⟨x 0, x 1, eq_ix2 x⟩
    simp only [View.readAt_eq_ld, harg2.read_unread, harg5.read_unread, View.ld_unit_zero (S := S1024x1024) hz2]
    refine (Pay.chunkMM_cast_apply (View.ld x0 (Rect.unit (s := S1x2048x1024) ![0, 512, 0] S1x512x1024.size (by decide))) x3 r h).trans ?_
    unfold kv
    refine Finset.sum_congr rfl fun d _ => ?_
    refine congrArg₂ (· * ·) (congrArg x0 (funext fun a => Fin.ext ?_)) (congrArg x3 (funext fun a => Fin.ext ?_))
    · match a with
      | ⟨0, _⟩ => rfl
      | ⟨1, _⟩ => rfl
      | ⟨2, _⟩ => show 0 + 1 * d.val = d.val; omega
    · match a with
      | ⟨0, _⟩ => rfl
      | ⟨1, _⟩ => show h.val = 0 + 1 * h.val; omega
  · -- the store of rows 0 to 511
    dsimp only at x ⊢
    obtain ⟨r, h, rfl⟩ : ∃ (r : Fin 512) (h : Fin 1024), x = ix2 r h := ⟨x 0, x 1, eq_ix2 x⟩
    simp only [View.readAt_eq_ld, harg2.read_unread, harg5.read_unread, View.ld_unit_zero (S := S1024x1024) hz2]
    refine (Pay.chunkMM_cast_apply (View.ld x0 (Rect.unit (s := S1x2048x1024) ![0, 0, 0] S1x512x1024.size (by decide))) x3 r h).trans ?_
    unfold kv
    refine Finset.sum_congr rfl fun d _ => ?_
    refine congrArg₂ (· * ·) (congrArg x0 (funext fun a => Fin.ext ?_)) (congrArg x3 (funext fun a => Fin.ext ?_))
    · match a with
      | ⟨0, _⟩ => rfl
      | ⟨1, _⟩ => rfl
      | ⟨2, _⟩ => show 0 + 1 * d.val = d.val; omega
    · match a with
      | ⟨0, _⟩ => rfl
      | ⟨1, _⟩ => show h.val = 0 + 1 * h.val; omega

/-! ## The output blocks -/

/-- After every point the attention-weights block is the softmax payload of the point's query rows, the query
    weights, the key scratch as the point leaves it, and the mask block: the first point of a batch entry fills the
    scratch before it reads it, the others find it filled. -/
theorem out5_eq (c : Dev nD) (t : Fin cfg0.N) :
    (outsAt0 m c t.val t.isLt).1
      = k0_pay18 (qrows (grid0.coords t) (xb m c t)) (wqb m c t) (outsAt0 m c t.val t.isLt).2.2.1 (mb m c t) := by
  by_cases h0 : t.val % 8 = 0
  · rw [outsAt0_A m c t h0]
    dsimp only
    exact outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t)
  · rw [outsAt0_B m c t h0]
    dsimp only
    exact outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2

/-- … and the attention-output block is the product payload of those weights with the value scratch as the point
    leaves it. -/
theorem out6_eq (c : Dev nD) (t : Fin cfg0.N) :
    (outsAt0 m c t.val t.isLt).2.1
      = k0_pay1 (k0_pay17 (qrows (grid0.coords t) (xb m c t)) (wqb m c t) (outsAt0 m c t.val t.isLt).2.2.1 (mb m c t))
          (outsAt0 m c t.val t.isLt).2.2.2 := by
  by_cases h0 : t.val % 8 = 0
  · rw [outsAt0_A m c t h0]
    dsimp only
    exact outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t)
  · rw [outsAt0_B m c t h0]
    dsimp only
    exact outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At a point's blocks the staged projection is the batch entry's projection by the argument matrix. -/
theorem kv_K (c : Dev nD) (t : Fin cfg0.N) : kv (xb m c t) (wkb m c t) = projArr (X m c) (WK m c) (bOf t) := by
  funext j
  obtain ⟨n, h, rfl⟩ : ∃ (n : Fin 2048) (h : Fin 1024), j = ix2 n h := ⟨j 0, j 1, eq_ix2 j⟩
  show ∑ d : Fin 1024, xb m c t (ix3 0 n d) * wkb m c t (ix2 d h) = ∑ d : Fin 1024, X m c (ix3 (bOf t) n d) * WK m c (ix2 h d)
  refine Finset.sum_congr rfl fun d _ => ?_
  rw [xb_apply m c t (bOf t).isLt, wkb_apply]
  rfl

theorem kv_V (c : Dev nD) (t : Fin cfg0.N) : kv (xb m c t) (wvb m c t) = projArr (X m c) (WV m c) (bOf t) := by
  funext j
  obtain ⟨n, h, rfl⟩ : ∃ (n : Fin 2048) (h : Fin 1024), j = ix2 n h := ⟨j 0, j 1, eq_ix2 j⟩
  show ∑ d : Fin 1024, xb m c t (ix3 0 n d) * wvb m c t (ix2 d h) = ∑ d : Fin 1024, X m c (ix3 (bOf t) n d) * WV m c (ix2 h d)
  refine Finset.sum_congr rfl fun d _ => ?_
  rw [xb_apply m c t (bOf t).isLt, wvb_apply]
  rfl

/-- After every point the two scratch buffers hold the key and value projections of the point's batch entry: the
    entry's first point fills them, and the next seven points, of the same entry, leave them as they were. -/
theorem scratch_inv (c : Dev nD) : ∀ (n : ℕ) (h : n < cfg0.N),
    (outsAt0 m c n h).2.2.1 = projArr (X m c) (WK m c) (bOf ⟨n, h⟩)
      ∧ (outsAt0 m c n h).2.2.2 = projArr (X m c) (WV m c) (bOf ⟨n, h⟩)
  | 0, h => by
    have h0 : (⟨0, h⟩ : Fin cfg0.N).val % 8 = 0 := rfl
    rw [outsAt0_A m c ⟨0, h⟩ h0]
    dsimp only
    exact ⟨(soutA0_kv c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)).trans (kv_K m c ⟨0, h⟩),
      (soutA1_kv c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)).trans (kv_V m c ⟨0, h⟩)⟩
  | n + 1, h => by
    by_cases h0 : (⟨n + 1, h⟩ : Fin cfg0.N).val % 8 = 0
    · rw [outsAt0_A m c ⟨n + 1, h⟩ h0]
      dsimp only
      exact ⟨(soutA0_kv c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)).trans (kv_K m c ⟨n + 1, h⟩),
        (soutA1_kv c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)).trans (kv_V m c ⟨n + 1, h⟩)⟩
    · have ih := scratch_inv c n (Nat.lt_of_succ_lt h)
      have hb : bOf ⟨n + 1, h⟩ = bOf ⟨n, Nat.lt_of_succ_lt h⟩ := Fin.ext (by
        have h0' : ¬(n + 1) % 8 = 0 := h0
        show (n + 1) / 8 = n / 8
        omega)
      rw [outsAt0_B m c ⟨n + 1, h⟩ h0, hb]
      dsimp only
      unfold sout0_B_0 sout0_B_1
      exact ih

/-- The query rows the body loads at point `t` are rows `256·(t % 8) …` of the staged batch entry. -/
theorem qrows_apply (t : Fin cfg0.N) (x0 : Vec Ideal S1x2048x1024 .bf16) (r : Fin 256) (d : Fin 1024) :
    qrows (grid0.coords t) x0 (ix3 0 r d) = x0 (ix3 0 (qOf t r) d) := by
  show x0 _ = x0 _
  have hc := coords1 t
  have ho := k0_off3_eq (grid0.coords t)
  refine congrArg x0 (funext fun a => Fin.ext ?_)
  match a with
  | ⟨0, _⟩ => show k0_off3 (grid0.coords t) 0 + 1 * 0 = 0; rw [ho]; rfl
  | ⟨1, _⟩ => show k0_off3 (grid0.coords t) 1 + 1 * r.val = 256 * (t.val % 8) + r.val; rw [ho]; show 256 * (grid0.coords t 1).val + 1 * r.val = _; rw [hc]; omega
  | ⟨2, _⟩ => show k0_off3 (grid0.coords t) 2 + 1 * d.val = d.val; rw [ho]; show 0 + 1 * d.val = d.val; omega

/-- The query row of block row `r` at point `t` is the specification's projected query row. -/
theorem qrow_eq (c : Dev nD) (t : Fin cfg0.N) (r : Fin 256) :
    (fun h : Fin 1024 => ∑ d : Fin 1024, qrows (grid0.coords t) (xb m c t) (ix3 0 r d) * wqb m c t (ix2 d h))
      = proj (X m c) (WQ m c) (bOf t) (qOf t r) := by
  funext h
  unfold proj
  refine Finset.sum_congr rfl fun d _ => ?_
  rw [qrows_apply, xb_apply m c t (bOf t).isLt, wqb_apply]
  rfl

/-- The mask row of block row `r` at point `t` is the argument's mask row. -/
theorem mrow_eq (c : Dev nD) (t : Fin cfg0.N) (r : Fin 256) :
    (fun k' : Fin 2048 => mb m c t (ix3 0 r k')) = fun k' => Mk m c (ix3 (bOf t) (qOf t r) k') :=
  funext fun k' => mb_apply m c t (bOf t).isLt r (qOf t r).isLt k'

/-- The attention-weights block after point `t`, entry (r, k): the specification's weight of query row
    `256·(t % 8) + r` of batch entry `t / 8` on key `k`. -/
theorem out5_apply (c : Dev nD) (t : Fin cfg0.N) (r : Fin 256) (k : Fin 2048) :
    (outsAt0 m c t.val t.isLt).1 (ix3 0 r k) = alpha (X m c) (Mk m c) (WQ m c) (WK m c) (bOf t) (qOf t r) k := by
  rw [out5_eq, (scratch_inv m c t.val t.isLt).1]
  refine (Pay.pay18_apply _ _ _ _ r k).trans ?_
  rw [qrow_eq, mrow_eq]
  rfl

/-- The attention-output block after point `t`, entry (r, h): the specification's output. -/
theorem out6_apply (c : Dev nD) (t : Fin cfg0.N) (r : Fin 256) (h : Fin 1024) :
    (outsAt0 m c t.val t.isLt).2.1 (ix3 0 r h) = out (X m c) (Mk m c) (WQ m c) (WK m c) (WV m c) (bOf t) (qOf t r) h := by
  rw [out6_eq, (scratch_inv m c t.val t.isLt).1, (scratch_inv m c t.val t.isLt).2]
  refine (Pay.pay1_apply _ _ r h).trans ?_
  unfold out
  refine Finset.sum_congr rfl fun k _ => ?_
  refine congrArg₂ (· * ·) ?_ rfl
  refine (Pay.pay17_apply _ _ _ _ r k).trans ?_
  rw [qrow_eq, mrow_eq]
  rfl

end Cert.KernelIdeal.PerPoint

end
-- ==== Proof.Arrays.lean ====
import proofs.«402156_j19112604467527_3_alg».proof.Proof.Gen.KernelIdeal.Value
import proofs.«402156_j19112604467527_3_alg».proof.Proof.Spec
import proofs.«402156_j19112604467527_3_alg».proof.Proof.Pieces
import proofs.«402156_j19112604467527_3_alg».proof.Proof.Inputs
import proofs.«402156_j19112604467527_3_alg».proof.Proof.PerPoint
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

/-! From the grid points to the whole arrays. Each point writes its two blocks back to block (t / 8, t % 8, 0) of
    the result arrays; those blocks are the specification's arrays read through the block, and the 32 blocks cover
    each array, so after the run the arrays are the specification's. -/

namespace Cert.KernelIdeal.Arrays

open Cert.KernelIdeal Cert.KernelIdeal.Gen Cert.Attn Cert.KernelIdeal.Inp Cert.KernelIdeal.PerPoint

variable (m : (ℓ : Loc nD τ sig) → Buf (Elt Ideal) ℓ) (ρ : Dev nD → PrngReg)

/-- The block indices of the two output windows, decided over the 32 points: block (t / 8, t % 8, 0). -/
theorem idx5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, win0_5.index t (0 : Fin 3) = t.val / 8 ∧ win0_5.index t (1 : Fin 3) = t.val % 8 ∧ win0_5.index t (2 : Fin 3) = 0)
theorem idx6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, win0_6.index t (0 : Fin 3) = t.val / 8 ∧ win0_6.index t (1 : Fin 3) = t.val % 8 ∧ win0_6.index t (2 : Fin 3) = 0)

/-- What point `t` writes back to the attention-weights array is block `t` of the specification's array. -/
theorem flushed5_eq (c : Dev nD) (t : Fin cfg0.N) :
    (dats m 0 c).flushed 5 t = ((cfg0.win 5).blk t).view.read (Elt Ideal) (alphaArr (X m c) (Mk m c) (WQ m c) (WK m c)) := by
  rw [Cert.KernelIdeal.Value.flushed5]
  funext j
  obtain ⟨e0, e1, e2⟩ := idx5 t
  show (outsAt0 m c t.val t.isLt).1 j = alphaArr (X m c) (Mk m c) (WQ m c) (WK m c) (((cfg0.win 5).blk t).view.emb j)
  have hj : j = ix3 (0 : Fin 1) (j 1) (j 2) := funext fun a => by
    match a with
    | ⟨0, _⟩ => exact Fin.ext (by have hlt : (j 0).val < 1 := (j 0).isLt; show (j 0).val = 0; omega)
    | ⟨1, _⟩ => rfl
    | ⟨2, _⟩ => rfl
  obtain ⟨r, k, rfl⟩ : ∃ (r : Fin 256) (k : Fin 2048), j = ix3 (0 : Fin 1) r k := ⟨j 1, j 2, hj⟩
  have a0 : ((cfg0.win 5).blk t).view.emb (ix3 (0 : Fin 1) r k) = ix3 (bOf t) (qOf t r) k := funext fun a => Fin.ext (by
    match a with
    | ⟨0, _⟩ => show win0_5.index t 0 * 1 + 1 * 0 = t.val / 8; rw [e0]; omega
    | ⟨1, _⟩ => show win0_5.index t 1 * 256 + 1 * r.val = 256 * (t.val % 8) + r.val; rw [e1]; omega
    | ⟨2, _⟩ => show win0_5.index t 2 * 2048 + 1 * k.val = k.val; rw [e2]; omega)
  rw [a0, out5_apply]
  rfl

/-- What point `t` writes back to the attention-output array is block `t` of the specification's array. -/
theorem flushed6_eq (c : Dev nD) (t : Fin cfg0.N) :
    (dats m 0 c).flushed 6 t = ((cfg0.win 6).blk t).view.read (Elt Ideal) (outArr (X m c) (Mk m c) (WQ m c) (WK m c) (WV m c)) := by
  rw [Cert.KernelIdeal.Value.flushed6]
  funext j
  obtain ⟨e0, e1, e2⟩ := idx6 t
  show (outsAt0 m c t.val t.isLt).2.1 j = outArr (X m c) (Mk m c) (WQ m c) (WK m c) (WV m c) (((cfg0.win 6).blk t).view.emb j)
  have hj : j = ix3 (0 : Fin 1) (j 1) (j 2) := funext fun a => by
    match a with
    | ⟨0, _⟩ => exact Fin.ext (by have hlt : (j 0).val < 1 := (j 0).isLt; show (j 0).val = 0; omega)
    | ⟨1, _⟩ => rfl
    | ⟨2, _⟩ => rfl
  obtain ⟨r, h, rfl⟩ : ∃ (r : Fin 256) (h : Fin 1024), j = ix3 (0 : Fin 1) r h := ⟨j 1, j 2, hj⟩
  have a0 : ((cfg0.win 6).blk t).view.emb (ix3 (0 : Fin 1) r h) = ix3 (bOf t) (qOf t r) h := funext fun a => Fin.ext (by
    match a with
    | ⟨0, _⟩ => show win0_6.index t 0 * 1 + 1 * 0 = t.val / 8; rw [e0]; omega
    | ⟨1, _⟩ => show win0_6.index t 1 * 256 + 1 * r.val = 256 * (t.val % 8) + r.val; rw [e1]; omega
    | ⟨2, _⟩ => show win0_6.index t 2 * 1024 + 1 * h.val = h.val; rw [e2]; omega)
  rw [a0, out6_apply]
  rfl

/-- Every index of the attention-weights array lies in the block of the point of its batch entry and query tile. -/
theorem cover5 (c : Dev nD) (i : S4x2048x2048.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 2048 := (i 2).isLt
  have hN := N32
  let t : Fin cfg0.N := ⟨8 * (i 0).val + (i 1).val / 256, by omega⟩
  have tv : t.val = 8 * (i 0).val + (i 1).val / 256 := rfl
  obtain ⟨e0, e1, e2⟩ := idx5 t
  refine ⟨t, flush0_5 t, ?_⟩
  show i ∈ ((View.whole main_v7_0).slice (win0_5.rect t)).set
  rw [View.set_slice_whole, Rect.mem_set_unit]
  intro a
  match a with
  | ⟨0, _⟩ => show win0_5.index t 0 * 1 ≤ (i 0).val ∧ (i 0).val < win0_5.index t 0 * 1 + 1; rw [e0, tv]; omega
  | ⟨1, _⟩ => show win0_5.index t 1 * 256 ≤ (i 1).val ∧ (i 1).val < win0_5.index t 1 * 256 + 256; rw [e1, tv]; omega
  | ⟨2, _⟩ => show win0_5.index t 2 * 2048 ≤ (i 2).val ∧ (i 2).val < win0_5.index t 2 * 2048 + 2048; rw [e2]; omega

theorem cover6 (c : Dev nD) (i : S4x2048x1024.Idx) :
    ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  have hN := N32
  let t : Fin cfg0.N := ⟨8 * (i 0).val + (i 1).val / 256, by omega⟩
  have tv : t.val = 8 * (i 0).val + (i 1).val / 256 := rfl
  obtain ⟨e0, e1, e2⟩ := idx6 t
  refine ⟨t, flush0_6 t, ?_⟩
  show i ∈ ((View.whole main_v7_1).slice (win0_6.rect t)).set
  rw [View.set_slice_whole, Rect.mem_set_unit]
  intro a
  match a with
  | ⟨0, _⟩ => show win0_6.index t 0 * 1 ≤ (i 0).val ∧ (i 0).val < win0_6.index t 0 * 1 + 1; rw [e0, tv]; omega
  | ⟨1, _⟩ => show win0_6.index t 1 * 256 ≤ (i 1).val ∧ (i 1).val < win0_6.index t 1 * 256 + 256; rw [e1, tv]; omega
  | ⟨2, _⟩ => show win0_6.index t 2 * 1024 ≤ (i 2).val ∧ (i 2).val < win0_6.index t 2 * 1024 + 1024; rw [e2]; omega

/-- The two result arrays after the run are the specification's arrays. -/
theorem final5 (c : Dev nD) : (dats m 0 c).arrAt 5 cfg0.N = alphaArr (X m c) (Mk m c) (WQ m c) (WK m c) :=
  (dats m 0 c).arrAt_eq_of_cover 5 (alphaArr (X m c) (Mk m c) (WQ m c) (WK m c)) (fun t _ => flushed5_eq m c t) (cover5 c)

theorem final6 (c : Dev nD) : (dats m 0 c).arrAt 6 cfg0.N = outArr (X m c) (Mk m c) (WQ m c) (WK m c) (WV m c) :=
  (dats m 0 c).arrAt_eq_of_cover 6 (outArr (X m c) (Mk m c) (WQ m c) (WK m c) (WV m c)) (fun t _ => flushed6_eq m c t) (cover6 c)

/-- Every weakly fair execution of the idealized kernel ends with the attention weights and the attention output at
    the specification's arrays of its arguments, the arguments unchanged. -/
theorem run : θ_run defs (onTc (τ := τ) (main (F := Ideal))) ⟨m, fun _ => 0, ρ⟩ fun r => ∀ c : Dev nD,
      r.2.mem ((c : Thread nD τ).loc main_v7_0) = alphaArr (X m c) (Mk m c) (WQ m c) (WK m c)
      ∧ r.2.mem ((c : Thread nD τ).loc main_v7_1) = outArr (X m c) (Mk m c) (WQ m c) (WK m c) (WV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Cert.KernelIdeal.Value.run_blocks m ρ)

end Cert.KernelIdeal.Arrays

end
-- ==== Proof.LibRowsRank3.lean ====
/-
  A kernel's vector operations on a block of shape [m, a, b] (m stacked matrices of a rows and b columns) read at an
  index, at the extended reals: the sum and the maximum of each row (a reduction over the last axis, the kernel's and the host's), a matrix of row
  values [m, a] viewed as a stack of columns [m, a, 1], and such a column stack broadcast along the rows to [m, a, b].
  Stated for any extents m, a, b.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowsRank3

open Idealize.ShloMosaic Idealize.ShloMosaic.ValueIdx

/-- The row index (u, p) with the column coordinate k inserted on the last axis is (u, p, k). -/
theorem lift_last {m a b : ℕ} (h : (⟨3, ![m, a, b]⟩ : Shape).Reduces [2] ⟨2, ![m, a]⟩) (u : Fin m) (p : Fin a) (k : Fin b) :
    h.lift (ix2 u p) k = ix3 u p k := by
  funext c
  match c with
  | ⟨0, _⟩ => exact Fin.ext rfl
  | ⟨1, _⟩ => exact Fin.ext rfl
  | ⟨2, _⟩ => exact Fin.ext rfl

/-- The sum over the last axis of an [m, a, b] block, read at row (u, p): the sum of the row's b entries. -/
theorem multiReduction_add_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (u : Fin m) (p : Fin a) :
    multiReduction .add [2] ⟨2, ![m, a]⟩ src acc h hφ hacc (ix2 u p) = ∑ k : Fin b, src (ix3 u p k) := by
  -- a reduction over one axis is the sum over that axis's coordinates of the source at the index with the coordinate inserted
  refine (Ideal.multiReduction_add_single src acc h hφ hacc (ix2 u p)).trans ?_
  show ∑ k : Fin b, src (h.lift (ix2 u p) k) = ∑ k : Fin b, src (ix3 u p k)
  exact Finset.sum_congr rfl fun k _ => congrArg src (lift_last h u p k)

/-- The maximum over the last axis of an [m, a, b] block, read at row (u, p): the fold of `max`, from the value the
    accumulator's pattern denotes, over the row's b entries. -/
theorem multiReduction_max_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.maximumf.neutral φ hφ)
    (u : Fin m) (p : Fin a) :
    multiReduction .maximumf [2] ⟨2, ![m, a]⟩ src acc h hφ hacc (ix2 u p)
      = (Finset.univ : Finset (Fin b)).fold max (Ideal.ofBits φ acc) (fun k => src (ix3 u p k)) := by
  refine (Ideal.multiReduction_maximumf_single src acc h hφ hacc (ix2 u p)).trans ?_
  show (Finset.univ : Finset (Fin b)).fold max (Ideal.ofBits φ acc) (src ∘ h.lift (ix2 u p)) = _
  exact congrArg (fun f => Finset.fold max (Ideal.ofBits φ acc) f (Finset.univ : Finset (Fin b)))
    (funext fun k => congrArg src (lift_last h u p k))

/-- The host's reduction with a maximum body over the last axis of an [m, a, b] array, read at row (u, p): the fold of
    `max`, from the initial value, over the row's b entries. -/
theorem hostReduce_max_last_apply {m a b : ℕ} {φ : FTy} (x : FVec Ideal ⟨3, ![m, a, b]⟩ φ) (init : FVec Ideal ⟨0, ![]⟩ φ)
    (h' : (⟨3, ![m, a, b]⟩ : Shape).ReducesTo [2] ⟨2, ![m, a]⟩) (h : (⟨3, ![m, a, b]⟩ : Shape).Reduces [2] ⟨2, ![m, a]⟩)
    (hu : 0 < (⟨0, ![]⟩ : Shape).numel) (u : Fin m) (p : Fin a) :
    Host.reduce FloatOps.maximumf x init h' hu (ix2 u p)
      = (Finset.univ : Finset (Fin b)).fold max (init (Shape.Idx.first hu)) (fun k => x (ix3 u p k)) := by
  rw [Host.reduce_eq_fold_single FloatOps.maximumf x init h' h hu]
  exact congrArg (fun f => Finset.fold max (init (Shape.Idx.first hu)) f (Finset.univ : Finset (Fin b)))
    (funext fun k => congrArg x (lift_last h u p k))

/-- A matrix stack [m, a] of row values viewed as a stack of columns [m, a, 1] reads the row's value. -/
theorem shapeCast_col_apply {m a : ℕ} {α : Type} (v : (⟨2, ![m, a]⟩ : Shape).Idx → α)
    (h : (⟨2, ![m, a]⟩ : Shape).ShapeCasts ⟨3, ![m, a, 1]⟩) (u : Fin m) (p : Fin a) (z : Fin 1) :
    shapeCast ⟨3, ![m, a, 1]⟩ v h (ix3 u p z) = v (ix2 u p) :=
  -- both indices have the row-major position u * a + p
  shapeCast_apply v h _ _ (by
    have hz : z.val = 0 := by omega
    rw [Shape.rowMajor_val_two, Shape.rowMajor_val_three]
    show u.val * a + p.val = (u.val * a + p.val) * 1 + z.val
    rw [hz, Nat.mul_one, Nat.add_zero])

/-- A stack of columns [m, a, 1] broadcast along the rows to [m, a, b] reads the row's column entry. -/
theorem broadcastTo_col_apply {m a b : ℕ} {α : Type} (v : (⟨3, ![m, a, 1]⟩ : Shape).Idx → α)
    (h : (⟨3, ![m, a, 1]⟩ : Shape).Broadcasts ⟨3, ![m, a, b]⟩) (u : Fin m) (p : Fin a) (k : Fin b) :
    broadcastTo ⟨3, ![m, a, b]⟩ v h (ix3 u p k) = v (ix3 u p (0 : Fin 1)) := by
  -- the two leading axes keep their coordinates (which are 0 anyway where the extent is 1); the unit axis reads 0
  refine broadcastTo_apply v h (ix3 u p k) (ix3 u p (0 : Fin 1)) fun ax => ?_
  match ax with
  | ⟨0, _⟩ =>
    show u.val = if m = 1 then 0 else u.val
    split
    · have := u.isLt; omega
    · rfl
  | ⟨1, _⟩ =>
    show p.val = if a = 1 then 0 else p.val
    split
    · have := p.isLt; omega
    · rfl
  | ⟨2, _⟩ => rfl

end Cert.LibRowsRank3

end
-- ==== Proof.RefSide.lean ====
/-
  The reference program read against the specification. Each of its host operations is read at an index, stage by
  stage: the three projections, the score, the scaled and masked logit, the row maximum, the shifted exponential,
  the row sum, the quotient (the attention weights) and the weighted sum of the value rows (the output). Both results
  are then the specification's arrays.
-/
import proofs.«402156_j19112604467527_3_alg».proof.Proof.Gen.ReferenceIdeal.Read
import proofs.«402156_j19112604467527_3_alg».proof.Proof.Spec
import proofs.«402156_j19112604467527_3_alg».proof.Proof.LibRowsRank3

noncomputable section

open scoped BigOperators

namespace Cert.ReferenceIdeal.RefSpec

open Idealize.ShloMosaic Idealize.ShloMosaic.ValueIdx Idealize.ShloMosaic.StableHlo
open Cert.ReferenceIdeal Cert.ReferenceIdeal.Gen Cert.ReferenceIdeal.Read Cert.Attn

/-- The activations, the mask and a projection matrix as the reference program holds them. -/
abbrev XT : Type := (⟨S4x2048x1024, .f32⟩ : BufTy).Contents (Elt Ideal)
abbrev MT : Type := (⟨S4x2048x2048, .i32⟩ : BufTy).Contents (Elt Ideal)
abbrev WT : Type := (⟨S1024x1024, .f32⟩ : BufTy).Contents (Elt Ideal)

/-! ## The projections -/

/-- Entry (b, n, h) of the first projection is the row of x against the row of W. -/
theorem v0_proj (x0 : XT) (x2 : WT) (b : Fin 4) (n : Fin 2048) (h : Fin 1024) :
    val_main_v0 (F := Ideal) x0 x2 (ix3 b n h) = proj x0 x2 b n h := by
  rw [val_main_v0_apply]
  unfold proj
  refine Finset.sum_congr rfl fun d _ => ?_
  have el : lidx_main_v0 (ix3 b n h) d = ix3 b n d := funext fun a => by
    match a with
    | ⟨0, _⟩ => rfl
    | ⟨1, _⟩ => rfl
    | ⟨2, _⟩ => rfl
  have er : ridx_main_v0 (ix3 b n h) d = ix2 h d := funext fun a => by
    match a with
    | ⟨0, _⟩ => rfl
    | ⟨1, _⟩ => rfl
  rw [el, er]

/-- The second and third projections are the same operation on another matrix. -/
theorem v1_proj (x0 : XT) (x3 : WT) (b : Fin 4) (n : Fin 2048) (h : Fin 1024) :
    val_main_v1 (F := Ideal) x0 x3 (ix3 b n h) = proj x0 x3 b n h := v0_proj x0 x3 b n h

theorem v2_proj (x0 : XT) (x4 : WT) (b : Fin 4) (n : Fin 2048) (h : Fin 1024) :
    val_main_v2 (F := Ideal) x0 x4 (ix3 b n h) = proj x0 x4 b n h := v0_proj x0 x4 b n h

/-! ## The score and the logit -/

/-- The score of query row q against key row k: the two projected rows multiplied entry by entry and summed. -/
theorem v3_score (x0 : XT) (x2 x3 : WT) (b : Fin 4) (q k : Fin 2048) :
    val_main_v3 (F := Ideal) x0 x2 x3 (ix3 b q k) = ∑ h : Fin 1024, proj x0 x2 b q h * proj x0 x3 b k h := by
  rw [val_main_v3_apply]
  refine Finset.sum_congr rfl fun h _ => ?_
  have el : lidx_main_v3 (ix3 b q k) h = ix3 b q h := funext fun a => by
    match a with
    | ⟨0, _⟩ => rfl
    | ⟨1, _⟩ => rfl
    | ⟨2, _⟩ => rfl
  have er : ridx_main_v3 (ix3 b q k) h = ix3 b k h := funext fun a => by
    match a with
    | ⟨0, _⟩ => rfl
    | ⟨1, _⟩ => rfl
    | ⟨2, _⟩ => rfl
  rw [el, er, v0_proj, v1_proj]

/-- Dividing the score by 32 multiplies it by 2⁻⁵. -/
theorem v5_scaled (x0 : XT) (x2 x3 : WT) (b : Fin 4) (q k : Fin 2048) :
    val_main_v5 (F := Ideal) x0 x2 x3 (ix3 b q k)
      = (∑ h : Fin 1024, proj x0 x2 b q h * proj x0 x3 b k h) * scale := by
  rw [val_main_v5_apply, val_main_v4_apply, val_main_cst_apply, v3_score]
  exact div_32 _

/-- The select writes −∞ where the mask entry is 0 and the scaled score elsewhere: the logit. -/
theorem v8_logit (x0 : XT) (x1 : MT) (x2 x3 : WT) (b : Fin 4) (q k : Fin 2048) :
    val_main_v8 (F := Ideal) x0 x1 x2 x3 (ix3 b q k) = logit x0 x1 x2 x3 b q k := by
  rw [val_main_v8_apply, val_main_v7_apply, val_main_v6_apply, val_main_c_apply, val_main_call0_v1_apply,
    val_main_call0_v0_apply, val_main_cst_0_apply, v5_scaled]
  show Scalar.select _ (Ideal.ofBits .f32 0xFF800000#32) _ = _
  rw [ofBits_ninf]
  rfl

/-! ## The row maximum -/

/-- The reduction with a maximum body over the key axis, from the initial value −∞, is the row maximum. -/
theorem v9_rowMax (x0 : XT) (x1 : MT) (x2 x3 : WT) (b : Fin 4) (q : Fin 2048) :
    val_main_v9 (F := Ideal) x0 x1 x2 x3 (ix2 b q) = rowMax (logit x0 x1 x2 x3 b q) := by
  unfold val_main_v9
  refine (Cert.LibRowsRank3.hostReduce_max_last_apply (m := 4) (a := 2048) (b := 2048)
    (val_main_v8 (F := Ideal) x0 x1 x2 x3) (val_main_cst_1 (F := Ideal)) reducesTo_S4x2048x2048_S4x2048_d2 (by decide) h_S_ b q).trans ?_
  unfold rowMax
  show (Finset.univ : Finset (Fin 2048)).fold max (Ideal.ofBits .f32 0xFF800000#32)
    (fun k => val_main_v8 (F := Ideal) x0 x1 x2 x3 (ix3 b q k)) = _
  rw [ofBits_ninf]
  exact congrArg (fun f => Finset.fold max (⊥ : EReal) f (Finset.univ : Finset (Fin 2048)))
    (funext fun k => v8_logit x0 x1 x2 x3 b q k)

/-- The outer maximum with a broadcast −∞ changes nothing. -/
theorem v11_rowMax (x0 : XT) (x1 : MT) (x2 x3 : WT) (b : Fin 4) (q : Fin 2048) :
    val_main_v11 (F := Ideal) x0 x1 x2 x3 (ix2 b q) = rowMax (logit x0 x1 x2 x3 b q) := by
  rw [val_main_v11_apply, val_main_v10_apply, val_main_cst_2_apply, v9_rowMax]
  show max (Ideal.ofBits .f32 0xFF800000#32) _ = _
  rw [ofBits_ninf, max_ninf]

/-- The row maximum broadcast back along the key axis. -/
theorem v13_rowMax (x0 : XT) (x1 : MT) (x2 x3 : WT) (b : Fin 4) (q k : Fin 2048) :
    val_main_v13 (F := Ideal) x0 x1 x2 x3 (ix3 b q k) = rowMax (logit x0 x1 x2 x3 b q) := by
  rw [val_main_v13_apply, val_main_v12_apply]
  have e : idx_main_v12 (idx_main_v13 (ix3 b q k)) = ix2 b q := funext fun a => by
    match a with
    | ⟨0, _⟩ => rfl
    | ⟨1, _⟩ => rfl
  rw [e, v11_rowMax]

/-! ## The shifted exponential, its row sum and the quotient -/

theorem v15_exp (x0 : XT) (x1 : MT) (x2 x3 : WT) (b : Fin 4) (q k : Fin 2048) :
    val_main_v15 (F := Ideal) x0 x1 x2 x3 (ix3 b q k)
      = Ideal.exp (logit x0 x1 x2 x3 b q k - rowMax (logit x0 x1 x2 x3 b q)) := by
  rw [val_main_v15_apply, val_main_v14_apply, v8_logit, v13_rowMax]
  rfl

/-- The sum over the key axis starts from the literal 0. -/
theorem v16_sum (x0 : XT) (x1 : MT) (x2 x3 : WT) (b : Fin 4) (q : Fin 2048) :
    val_main_v16 (F := Ideal) x0 x1 x2 x3 (ix2 b q)
      = ∑ k' : Fin 2048, Ideal.exp (logit x0 x1 x2 x3 b q k' - rowMax (logit x0 x1 x2 x3 b q)) := by
  rw [val_main_v16_apply, val_main_cst_3_apply]
  show Ideal.ofBits .f32 0x00000000#32 + _ = _
  rw [Ideal.ofBits_zero_f32, zero_add]
  refine Finset.sum_congr rfl fun k _ => ?_
  have e : idx_main_v16 (ix2 b q) k = ix3 b q k := funext fun a => by
    match a with
    | ⟨0, _⟩ => rfl
    | ⟨1, _⟩ => rfl
    | ⟨2, _⟩ => rfl
  rw [e, v15_exp]

/-- The row sum broadcast back along the key axis. -/
theorem v18_sum (x0 : XT) (x1 : MT) (x2 x3 : WT) (b : Fin 4) (q k : Fin 2048) :
    val_main_v18 (F := Ideal) x0 x1 x2 x3 (ix3 b q k)
      = ∑ k' : Fin 2048, Ideal.exp (logit x0 x1 x2 x3 b q k' - rowMax (logit x0 x1 x2 x3 b q)) := by
  rw [val_main_v18_apply, val_main_v17_apply]
  have e : idx_main_v17 (idx_main_v18 (ix3 b q k)) = ix2 b q := funext fun a => by
    match a with
    | ⟨0, _⟩ => rfl
    | ⟨1, _⟩ => rfl
  rw [e, v16_sum]

/-- The quotient is the softmax of the logit row: the attention weight. -/
theorem v19_alpha (x0 : XT) (x1 : MT) (x2 x3 : WT) (b : Fin 4) (q k : Fin 2048) :
    val_main_v19 (F := Ideal) x0 x1 x2 x3 (ix3 b q k) = alpha x0 x1 x2 x3 b q k := by
  rw [val_main_v19_apply, v15_exp, v18_sum]
  rfl

/-! ## The two results -/

/-- The reference's attention weights are the specification's. -/
theorem ref_alpha (x0 : (⟨S4x2048x1024, .f32⟩ : BufTy).Contents (Elt Ideal))
    (x1 : (⟨S4x2048x2048, .i32⟩ : BufTy).Contents (Elt Ideal))
    (x2 x3 : (⟨S1024x1024, .f32⟩ : BufTy).Contents (Elt Ideal)) :
    val_main_v19 (F := Ideal) x0 x1 x2 x3 = alphaArr x0 x1 x2 x3 := by
  funext i
  obtain ⟨b, q, k, rfl⟩ : ∃ b q k, i = ix3 b q k := ⟨i 0, i 1, i 2, eq_ix3 i⟩
  exact v19_alpha x0 x1 x2 x3 b q k

/-- Entry (b, q, h) of the last product: the weights of row q against column h of the value projection. -/
theorem v20_out (x0 : XT) (x1 : MT) (x2 x3 x4 : WT) (b : Fin 4) (q : Fin 2048) (h : Fin 1024) :
    val_main_v20 (F := Ideal) x0 x1 x2 x3 x4 (ix3 b q h) = out x0 x1 x2 x3 x4 b q h := by
  rw [val_main_v20_apply]
  unfold out
  refine Finset.sum_congr rfl fun k _ => ?_
  have el : lidx_main_v20 (ix3 b q h) k = ix3 b q k := funext fun a => by
    match a with
    | ⟨0, _⟩ => rfl
    | ⟨1, _⟩ => rfl
    | ⟨2, _⟩ => rfl
  have er : ridx_main_v20 (ix3 b q h) k = ix3 b k h := funext fun a => by
    match a with
    | ⟨0, _⟩ => rfl
    | ⟨1, _⟩ => rfl
    | ⟨2, _⟩ => rfl
  rw [el, er, v19_alpha, v2_proj]

/-- The reference's output is the specification's. -/
theorem ref_out (x0 : (⟨S4x2048x1024, .f32⟩ : BufTy).Contents (Elt Ideal))
    (x1 : (⟨S4x2048x2048, .i32⟩ : BufTy).Contents (Elt Ideal))
    (x2 x3 x4 : (⟨S1024x1024, .f32⟩ : BufTy).Contents (Elt Ideal)) :
    val_main_v20 (F := Ideal) x0 x1 x2 x3 x4 = outArr x0 x1 x2 x3 x4 := by
  funext i
  obtain ⟨b, q, h, rfl⟩ : ∃ b q h, i = ix3 b q h := ⟨i 0, i 1, i 2, eq_ix3 i⟩
  exact v20_out x0 x1 x2 x3 x4 b q h

end Cert.ReferenceIdeal.RefSpec

end
-- ==== Proof.lean ====
/-
  The certificate of a fused single-head attention kernel against its reference:
      Q = x·Wqᵀ,  K = x·Wkᵀ,  V = x·Wvᵀ,   s = Q·Kᵀ / 32 masked to −∞ where the mask is 0,
      alpha = softmax(s) along the keys,   out = alpha·V,
  for 4 batch entries of 2048 rows and width 1024. The kernel works on a grid of 4 × 8 points: the first point of a
  batch entry projects the entry's keys and values into two scratch buffers, and every point projects its 256 query
  rows, takes the masked softmax of their logits against all 2048 keys and multiplies the weights with the values.

  Over the extended reals both programs compute one function of the arguments (Proof/Spec.lean): the kernel's
  product with the literal 2⁻⁵ is the reference's quotient by 32 at every extended real, the kernel's named stand-in
  for −∞ is the reference's −∞, the maximum folded from −∞ absorbs the reference's extra maximum with −∞, a change of
  float format is the identity, and every sum is the same sum. No law used needs finiteness, so the precondition is
  not opened.

  The kernel side: what one body run leaves (Proof/Pieces.lean), its payloads at an index (Proof/Payloads.lean), the
  input blocks in terms of the arguments (Proof/Inputs.lean), the scratch buffers and the two output blocks after
  every point (Proof/PerPoint.lean, an induction over the points), the arrays after the run (Proof/Arrays.lean).
  The reference side: its host operations read stage by stage (Proof/RefSide.lean).
-/
import proofs.«402156_j19112604467527_3_alg».proof.Defs
import proofs.«402156_j19112604467527_3_alg».proof.Proof.Gen.Kernel
import proofs.«402156_j19112604467527_3_alg».proof.Proof.Gen.Kernel.Skeleton
import proofs.«402156_j19112604467527_3_alg».proof.Proof.Gen.Kernel.Launch
import proofs.«402156_j19112604467527_3_alg».proof.Proof.Gen.Kernel.Points
import proofs.«402156_j19112604467527_3_alg».proof.Proof.Gen.Kernel.Frame
import proofs.«402156_j19112604467527_3_alg».proof.Proof.Gen.KernelIdeal
import proofs.«402156_j19112604467527_3_alg».proof.Proof.Gen.KernelIdeal.Skeleton
import proofs.«402156_j19112604467527_3_alg».proof.Proof.Gen.KernelIdeal.Launch
import proofs.«402156_j19112604467527_3_alg».proof.Proof.Gen.KernelIdeal.Points
import proofs.«402156_j19112604467527_3_alg».proof.Proof.Gen.KernelIdeal.Frame
import proofs.«402156_j19112604467527_3_alg».proof.Proof.Gen.ReferenceIdeal
import proofs.«402156_j19112604467527_3_alg».proof.Proof.Gen.KernelIdeal.Value
import proofs.«402156_j19112604467527_3_alg».proof.Proof.Gen.ReferenceIdeal.Run
import proofs.«402156_j19112604467527_3_alg».proof.Proof.Gen.ReferenceIdeal.Read
import proofs.«402156_j19112604467527_3_alg».proof.Proof.Gen.Pre_finite_inputs
import proofs.«402156_j19112604467527_3_alg».proof.Proof.Arrays
import proofs.«402156_j19112604467527_3_alg».proof.Proof.RefSide
import Idealize.ShloMosaic.Adequacy
import Idealize.ShloMosaic.Init

noncomputable section

namespace Cert.Proof

open Idealize.ShloMosaic Idealize.SL.Sem Cert.Attn

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The one rewrite of the idealization: the kernel's finite mask fill is named −∞. -/
theorem preserves : Cert.preserves_Kernel_KernelIdeal :=
  IdealRules.named_const.statement Cert.KernelIdeal.κ "neg_big" .f32 0xFF333332#32 ⊥ rfl

/-- Both programs end with the specification's attention output and attention weights of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => outArr (Cert.KernelIdeal.PerPoint.X m c) (Cert.KernelIdeal.PerPoint.Mk m c) (Cert.KernelIdeal.PerPoint.WQ m c) (Cert.KernelIdeal.PerPoint.WK m c) (Cert.KernelIdeal.PerPoint.WV m c),
    fun c => alphaArr (Cert.KernelIdeal.PerPoint.X m c) (Cert.KernelIdeal.PerPoint.Mk m c) (Cert.KernelIdeal.PerPoint.WQ m c) (Cert.KernelIdeal.PerPoint.WK m c),
    (θ_run Cert.KernelIdeal.defs _ _).mono (fun _ h c => ⟨(h c).2.1, (h c).1, (h c).2.2⟩) (Cert.KernelIdeal.Arrays.run m ρ), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v20_eq, Cert.ReferenceIdeal.RefSpec.ref_out, (hagree c).1, (hagree c).2.1,
      (hagree c).2.2.1, (hagree c).2.2.2.1, (hagree c).2.2.2.2]
  · rw [Cert.ReferenceIdeal.Read.val_main_v19_eq, Cert.ReferenceIdeal.RefSpec.ref_alpha, (hagree c).1, (hagree c).2.1,
      (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
